-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32x1 : S_.BroadcastsInDim S4096x32x1 (![] : Fin 0 → Fin S4096x32x1.rank)
  reducesTo_S4096x32x1_S_d0_1_2 : S4096x32x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x32x1 .f32) (main_arg3 : FVec F S4096x32x1 .f32) (main_arg4 : FVec F S4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32x1 .f32 := Host.absf main_arg2
  let main_cst_0 : FVec F S_ .f32 := constant S_ .f32 0x7F800000#32
  let main_v5 : FVec F S4096x32x1 .f32 := broadcastInDim S4096x32x1 ![] bcast_S_S4096x32x1 main_cst_0
  let main_v6 : IVec S4096x32x1 1 := cmpf .olt main_v4 main_v5
  let main_c_1 : IVec S_ 1 := constantI S_ 1 1#1
  let main_v7 : IVec S_ 1 := (fun x v => Host.reduce IntOp.andi x v reducesTo_S4096x32x1_S_d0_1_2 h_S_) main_v6 main_c_1
  let main_v8 : IVec S_ 1 := andi main_v3 main_v7
  let main_v9 : FVec F S4096x32x1 .f32 := Host.absf main_arg3
  let main_cst_2 : FVec F S_ .f32 := constant S_ .f32 0x7F800000#32
  let main_v10 : FVec F S4096x32x1 .f32 := broadcastInDim S4096x32x1 ![] bcast_S_S4096x32x1 main_cst_2
  let main_v11 : IVec S4096x32x1 1 := cmpf .olt main_v9 main_v10
  let main_c_3 : IVec S_ 1 := constantI S_ 1 1#1
  let main_v12 : IVec S_ 1 := (fun x v => Host.reduce IntOp.andi x v reducesTo_S4096x32x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S4096x32 : Shape := ⟨2, ![4096, 32]⟩
abbrev S256x4096 : Shape := ⟨2, ![256, 4096]⟩
abbrev S256x32 : Shape := ⟨2, ![256, 32]⟩
abbrev S256 : Shape := ⟨1, ![256]⟩
abbrev S256x32x128 : Shape := ⟨3, ![256, 32, 128]⟩
abbrev S256x32x1 : Shape := ⟨3, ![256, 32, 1]⟩
abbrev S256x1 : Shape := ⟨2, ![256, 1]⟩
abbrev S1x4096 : Shape := ⟨2, ![1, 4096]⟩
abbrev S8192x4096 : Shape := ⟨2, ![8192, 4096]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 14
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x32, .f32⟩
  | .hbm, ⟨8, _⟩ => ⟨S4096x32, .f32⟩
  | .hbm, ⟨9, _⟩ => ⟨S4096x4096, .bf16⟩
  | .hbm, ⟨10, _⟩ => ⟨S8192x4096, .f32⟩
  | .hbm, ⟨11, _⟩ => ⟨S8192x4096, .bf16⟩
  | .hbm, ⟨12, _⟩ => ⟨S8192x4096, .f32⟩
  | .hbm, ⟨13, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S4096, .f32⟩
  | .local _ .vmem, ⟨7, _⟩ => ⟨S256, .f32⟩
  | .local _ .vmem, ⟨8, _⟩ => ⟨S256, .f32⟩
  | .local _ .vmem, ⟨9, _⟩ => ⟨S256x4096, .bf16⟩
  | .local _ .vmem, ⟨10, _⟩ => ⟨S256x4096, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024, .f32⟩
  | .local _ .vmem, ⟨16, _⟩ => ⟨S1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096x32x1_S4096x32 : S4096x32x1.ShapeCasts S4096x32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .bf16 = 32 ∨ (Rect.block (s := S8192x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32x1 : Shape := ⟨3, ![4096, 32, 1]⟩
abbrev S4096 : Shape := ⟨1, ![4096]⟩
abbrev S4096x32x128 : Shape := ⟨3, ![4096, 32, 128]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x32x128, .f32⟩
  | .hbm, ⟨9, _⟩ => ⟨S4096x32x128, .f32⟩
  | .hbm, ⟨10, _⟩ => ⟨S4096x32x128, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KReg0.lean ====
/-
  The first kernel region (the group-wise dequantisation) at a parameter `V`, the buffer contents the region is
  entered from: each window's block at a grid point, what the body leaves in the output window's buffer as a
  function of the five input blocks, the body's triple, the region's proof data and its body obligation.

  The body loads its five input blocks whole, computes one value and stores it over the whole output block; nothing
  is kept between grid points, so the region's invariant is the scoped rest and the generator register, untouched.
-/
import proofs.«110790_j64330020159907_1_alg».proof.Proof.Gen.Kernel.Launch
import proofs.«110790_j64330020159907_1_alg».proof.Proof.Gen.Kernel.Skeleton
import proofs.«110790_j64330020159907_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev rq : Rect S256x4096 := Rect.unit (s := S256x4096) ![0, 0] S256x4096.size inb_S256x4096_S256x4096_0_0
abbrev rg : Rect S256x32 := Rect.unit (s := S256x32) ![0, 0] S256x32.size inb_S256x32_S256x32_0_0
abbrev rr : Rect S256 := Rect.unit (s := S256) ![0] S256.size inb_S256_S256_0
abbrev rc : Rect S4096 := Rect.unit (s := S4096) ![0] S4096.size inb_S4096_S4096_0

/-- The output window's staging buffer after the body, from the input windows' blocks: the one store, over the whole
    block, of the dequantised and rescaled weights. -/
def out0_5 (x0 : Vec F S256x4096 .i32) (x1 x2 : Vec F S256x32 .f32) (x3 : Vec F S4096 .f32) (x4 : Vec F S256 .f32) : Vec F S256x4096 .bf16 :=
  View.canon [⟨rq, k0_pay1 (View.ld x0 rq) (View.ld x1 rg) (View.ld x2 rg) (View.ld x4 rr) (View.ld x3 rc)⟩]

/-- The store tiles the buffer, so it covers it. -/
theorem cover0_5 (p0 : Vec F S256x4096 .bf16) (y : S256x4096.Idx) :
    ∃ pc ∈ ([⟨rq, p0⟩] : List (View.Piece (Elt F) S256x4096 .bf16)), y ∈ pc.1.set :=
  View.cover_of_tiled [⟨rq, p0⟩] S256x4096.size (by rfl) y

set_option maxHeartbeats 1000000 in
/-- The body on whole staging memrefs, the inputs' at contents `xW` and the output's at anything, runs to the
    continuation holding the inputs' as they were and the output's at `out0_5` of the inputs'. -/
theorem sound_kernel0 (c : Dev nD) (E : Set ℕ) (i : grid0.Coords)
    (arg1 : Memref sig .tc .vmem S256x4096 .i32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S4096 .f32) (harg4 : arg4.IsWhole)
    (arg5 : Memref sig .tc .vmem S256 .f32) (harg5 : arg5.IsWhole) (arg6 : Memref sig .tc .vmem S256x4096 .bf16) (harg6 : arg6.IsWhole)
    (x0 : Vec F S256x4096 .i32) (x1 x2 : Vec F S256x32 .f32) (x3 : Vec F S4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__dequant_kernel i arg1 harg1 arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the region on core `c`: the arrays as the region finds them; after the body at point `t` each
    input's buffer at its block and the output's at `out0_5` of the input blocks; the invariant the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Defs.lean ====
/-
  The second kernel region (the tiled matrix product with its bias): what its two control cases share.

  The grid is 8 × 4 × 2; the last axis `l` walks the two halves of the contraction. The body clears its accumulator
  where `l = 0`, adds the product of the two staged blocks to it at every point, and where `l = 1` stores the
  accumulator plus the bias row into the output block. So a point is in one of two cases, decided by the parity of
  its position: even (clear, accumulate; the output block untouched and not written back) and odd (accumulate, store).
-/
import proofs.«110790_j64330020159907_1_alg».proof.Proof.Gen.Kernel.Launch
import proofs.«110790_j64330020159907_1_alg».proof.Proof.Gen.Kernel.Skeleton
import proofs.«110790_j64330020159907_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first branch (`l = 0`), from the grid coordinates. -/
abbrev cond1_0 (i : grid1.Coords) : Prop := (Scalar.cmpi .ne (Scalar.extui (Scalar.cmpi .eq (BitVec.ofNat 32 (i 2).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second branch (`l = 1`), from the grid coordinates. -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even positions the output window is idle: the body stores nothing into it there, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd positions it is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x1024 .f32 := Memref.whole cc1_scratch0
/-- The accumulator as a view: what it holds is stated through it. -/
abbrev VS1_0 : View sig .tc .vmem S1024x1024 .f32 := scM1_0.view

/-- The class invariant with the accumulator as a memref owned at some contents: what the body obligation hands
    the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KReg1RunA.lean ====
/-
  The body of the second kernel region at an even grid position (`l = 0`): the accumulator is cleared, the product of
  the two staged blocks is added to it, and the output block is left untouched. The stores the accumulator ends
  with are found by running the body.
-/
import proofs.«110790_j64330020159907_1_alg».proof.Proof.KReg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at an even position — none in the output block, which is
    handed back at the contents `xi3` it was found at — with the proof that on whole memrefs, the three inputs at
    their contents and the accumulator at anything, the body runs to the continuation holding the inputs as they
    were and the accumulator with its pieces written. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KReg1RunB.lean ====
/-
  The body of the second kernel region at an odd grid position (`l = 1`): the product of the two staged blocks is
  added to the accumulator the position before left, and the accumulator plus the bias row is stored over the whole
  output block. The stores the accumulator and the output block end with are found by running the body.
-/
import proofs.«110790_j64330020159907_1_alg».proof.Proof.KReg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at an odd position, with the proof that on whole memrefs,
    the three inputs at their contents, the accumulator at the contents `xs0` the position before left and the output
    block at anything, the body runs to the continuation holding the inputs as they were and the accumulator and the
    output block with their pieces written. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.Kernel.Hand

end
-- ==== Proof.KReg1.lean ====
/-
  The second kernel region (the tiled matrix product with its bias) at a parameter `V`, the buffer contents the
  region is entered from: what the accumulator and the output block hold after each grid position, by recursion on
  the position; the region's invariant, which carries the accumulator from one position to the next; the region's
  proof data and its body obligation.

  Before the first position the invariant is the scoped rest (every scoped buffer at anything) and the generator
  register; after position `n` it has the accumulator at what position `n` left in it. At an even position the body
  overwrites the accumulator before reading it, so whatever it held is forgotten; at an odd position it reads what the
  even position before it left.
-/
import proofs.«110790_j64330020159907_1_alg».proof.Proof.KReg1RunA
import proofs.«110790_j64330020159907_1_alg».proof.Proof.KReg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class invariant with the accumulator at a state `S` of the proof's choosing. -/
def phiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ (∃ r, prngReg c r))

theorem PhiA1_with (c : Dev nD) : (Pipeline.ΦA spec1 c : sProp 𝕄) = phiWith c iprop(∃ d, owns (c : Thread nD τ) scM1_0 fullShare d) := by
  rw [PhiA1_eq]; rfl

/-- The accumulator's state is taken out of the invariant and any state can be put back. -/
theorem phiWith_open (c : Dev nD) (S : sProp 𝕄) :
    phiWith c S ⊢ iprop(S ∗ ∀ S' : sProp 𝕄, S' -∗ phiWith c S') := by
  unfold phiWith
  iintro ⟨⟨B0, B1, B2, B3, B4, B5, B6, B7, B8, B9, B10, HS⟩, Hg⟩
  isplitl [HS]; · iexact HS
  iintro %S' HS'
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HS'
  iexact Hg

theorem phiWith_mono (c : Dev nD) {S S' : sProp 𝕄} (h : S ⊢ S') : phiWith c S ⊢ phiWith c S' := by
  unfold phiWith
  iintro ⟨⟨B0, B1, B2, B3, B4, B5, B6, B7, B8, B9, B10, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iapply h; iexact HS
  iexact Hg

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves -/

/-- At an even position the body stores nothing into the output block: a placeholder nothing consults, the window being
    neither written back there nor read at the next position. -/
def out1_A_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The even case's stores into the accumulator cover it. -/
theorem scover1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the even case leaves in the accumulator: its pieces read back. -/
def sout1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- The odd case's store into the output block covers it. -/
theorem cover1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What the odd case leaves in the output block: its pieces read back. -/
def out1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The odd case's stores into the accumulator cover it. -/
theorem scover1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the odd case leaves in the accumulator: its pieces read back. -/
def sout1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## What the output block and the accumulator hold after each position -/

/-- The pair (output block's staging buffer, accumulator) after the body at position `n`: the case the parity of `n`
    selects, run at the position's memrefs and input blocks; the odd case over the accumulator the position before left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at an even position: the even case's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an odd position: the odd case's contents, over what the position before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first, the class's (every scoped buffer at anything);
    afterwards the accumulator at what the position before left in it. -/
def PhiS1 (c : Dev nD) : (n : ℕ) → n ≤ cfg1.N → sProp 𝕄
  | 0, _ => Pipeline.ΦA spec1 c
  | n + 1, hn => phiWith c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = phiWith c (owns (c : Thread nD τ) scM1_0 fullShare ((outsAt1 V c n hn).2)) := rfl

theorem PhiS1_pos (c : Dev nD) (n : ℕ) (h : n ≤ cfg1.N) (hz : n ≠ 0) :
    PhiS1 V c n h = phiWith c (owns (c : Thread nD τ) scM1_0 fullShare ((outsAt1 V c (n - 1) (by omega)).2)) := by
  cases n with
  | zero => exact absurd rfl hz
  | succ n => rfl

/-! ## The region's proof data -/

/-- The proof data of the region on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the parity of the position says which case it is
    in; the invariant hands the body the accumulator (at anything before an even position, at what the position
    before left before an odd one) and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  have hin : ∀ w : Fin cfg1.W, w.val < 3 → cfg1.idle w (grid1.coords t) = false := by
    intro w hw
    match w, hw with
    | ⟨0, _⟩, _ => exact liveAt1_0 t
    | ⟨1, _⟩, _ => exact liveAt1_1 t
    | ⟨2, _⟩, _ => exact liveAt1_2 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hΦ : (dat1 V c).Φ t.castSucc ⊢ phiWith c iprop(∃ d, owns (c : Thread nD τ) scM1_0 fullShare d) := by
      rw [PhiS1_castSucc V c t]
      by_cases hz : t.val = 0
      · rw [PhiS1_zero V c _ _ hz, PhiA1_with]
      · rw [PhiS1_pos V c _ _ hz]
        exact phiWith_mono c (by iintro H; iexists _; iexact H)
    iintro ⟨HΦ, Ho, ⟨%d0, H0⟩, ⟨%d1, H1⟩, ⟨%d2, H2⟩, ⟨%d3, H3⟩⟩
    ihave HΦ' := hΦ $$ HΦ
    ihave HΦ'' := (phiWith_open c _) $$ HΦ'
    icases HΦ'' with ⟨HS0, Hback⟩
    iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hback]
    · iapply Hback
      unfold owns; iexists _; isplitr
      swap; · iexact HS0
      ipureintro; exact View.read_writes_of_cover _ _ _ _ _ (scover1_A_0 c _ _ _ _ _ _ _ _ _ _ _ _ _ _ _ _)
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS1_castSucc V c t, PhiS1_pos V c _ _ hz]
    iintro ⟨HΦ, Ho, ⟨%d0, H0⟩, ⟨%d1, H1⟩, ⟨%d2, H2⟩, ⟨%d3, H3⟩⟩
    ihave HΦ'' := (phiWith_open c _) $$ HΦ
    icases HΦ'' with ⟨HS0, Hback⟩
    iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hback]
    · iapply Hback
      unfold owns; iexists _; isplitr
      swap; · iexact HS0
      ipureintro; exact View.read_writes_of_cover _ _ _ _ _ (scover1_B_0 c _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last position the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_with]
  exact phiWith_mono c (by iintro H; iexists _; iexact H)

end Region1

end Cert.Kernel.Hand

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.KLaunch.lean ====
/-
  The whole run of the kernel's program: its two kernel regions as segments between the three stretches of host
  operations, and the launch. Between two items a core holds every unscoped buffer at a valuation, beside the generator
  register at some state and the core owing nothing. The valuations are folded through the program: the launch
  memory, then each host stretch's operations applied, then, after a region, the region's output array at what the
  region's write-backs leave (every other buffer as the region found it).

  The result: every weakly fair execution terminates and every final memory holds each unscoped buffer at the last
  valuation — the arguments as launched (no item writes one), the result buffer at the last reshape of what the second
  region leaves.
-/
import proofs.«110790_j64330020159907_1_alg».proof.Proof.KReg0
import proofs.«110790_j64330020159907_1_alg».proof.Proof.KReg1
import proofs.«110790_j64330020159907_1_alg».proof.Proof.KRegionsV
import proofs.«110790_j64330020159907_1_alg».proof.Proof.LibClassARegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The valuations between the items -/

/-- What the first region is entered from, read at the TensorCore's references. -/
abbrev E1 : (c : Dev nD) → (b : Ref sig .tc) → Buf (Elt F) ((c : Thread nD τ).loc b) := fun c b => Gen.V1 m c b

/-- At the first region's exit: its arrays at what the pipeline leaves, every other buffer as entered. -/
def arrs0 (c : Dev nD) : Valuation τ sig (Elt F) :=
  Pipeline.withArrays spec0 c (Gen.V1 m c) fun w => (dat0 (E1 m) c).arrAt w cfg0.N

/-- The regions' unknowns with the first region's output filled in (all the second region's entry needs). -/
def outsA : Gen.Outs (F := F) := fun _ r c => arrs0 m c r

/-- What the second region is entered from, read at the TensorCore's references. -/
abbrev E3 : (c : Dev nD) → (b : Ref sig .tc) → Buf (Elt F) ((c : Thread nD τ).loc b) := fun c b => Gen.V3 m (outsA m) c b

/-- At the second region's exit: its arrays at what the pipeline leaves, every other buffer as entered. -/
def arrs1 (c : Dev nD) : Valuation τ sig (Elt F) :=
  Pipeline.withArrays spec1 c (Gen.V3 m (outsA m) c) fun w => (dat1 (E3 m) c).arrAt w cfg1.N

/-- What the two regions leave in the buffers they may change. -/
def outs : Gen.Outs (F := F) := fun J r c => if J = 2 then arrs0 m c r else arrs1 m c r

theorem outs_two (c : Dev nD) : outs m 2 main_v2 c = (dat0 (E1 m) c).arrAt 5 cfg0.N := by
  unfold outs; rw [if_pos rfl]; unfold arrs0
  exact Pipeline.withArrays_arr spec0 launch0.win.arr_inj c _ _ 5

theorem outs_four (c : Dev nD) : outs m 4 main_v5 c = (dat1 (E3 m) c).arrAt 3 cfg1.N := by
  unfold outs; rw [if_neg (by decide)]; unfold arrs1
  exact Pipeline.withArrays_arr spec1 launch1.win.arr_inj c _ _ 3

/-- The second region's entry does not depend on what the second region leaves. -/
theorem V3_outs (c : Dev nD) : Gen.V3 m (outs m) c = Gen.V3 m (outsA m) c := rfl

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

abbrev L : GSem nD τ sig → Finset Unit := fun _ => ∅
abbrev lv : GSem nD τ sig → Unit → ℕ := fun _ _ => 0

/-! ## The first region as a segment -/

theorem hF0 (c : Dev nD) (w : Fin cfg0.W) :
    (dat0 (E1 m) c).arrAt w cfg0.N = Gen.V2 m (outs m) c (Proc.devRef .tc (Pipeline.arrRef spec0 w)) := by
  match w with
  | ⟨0, _⟩ => exact ((dat0 (E1 m) c).arrAt_in 0 rfl _).trans ((A_eq0 (E1 m) c 0).trans (Gen.V2_of m (outs m) c main_arg1 (by decide)).symm)
  | ⟨1, _⟩ => exact ((dat0 (E1 m) c).arrAt_in 1 rfl _).trans ((A_eq0 (E1 m) c 1).trans (Gen.V2_of m (outs m) c main_v0 (by decide)).symm)
  | ⟨2, _⟩ => exact ((dat0 (E1 m) c).arrAt_in 2 rfl _).trans ((A_eq0 (E1 m) c 2).trans (Gen.V2_of m (outs m) c main_v1 (by decide)).symm)
  | ⟨3, _⟩ => exact ((dat0 (E1 m) c).arrAt_in 3 rfl _).trans ((A_eq0 (E1 m) c 3).trans (Gen.V2_of m (outs m) c main_arg4 (by decide)).symm)
  | ⟨4, _⟩ => exact ((dat0 (E1 m) c).arrAt_in 4 rfl _).trans ((A_eq0 (E1 m) c 4).trans (Gen.V2_of m (outs m) c main_arg5 (by decide)).symm)
  | ⟨5, _⟩ =>
    refine (outs_two m c).symm.trans ?_
    show outs m 2 main_v2 c = Function.update (Gen.V1 m c) main_v2 (outs m 2 main_v2 c) main_v2
    rw [Function.update_self]

theorem hrest0 (c : Dev nD) (b : Ref sig .tc) (hb : b ∉ Finset.univ.image (Pipeline.arrRef spec0)) :
    Gen.V2 m (outs m) c (Proc.devRef .tc b) = Gen.V1 m c (Proc.devRef .tc b) :=
  Gen.V2_of m (outs m) c b (fun h => hb (by
    rw [List.mem_singleton] at h; subst h
    exact Finset.mem_image.mpr ⟨5, Finset.mem_univ _, rfl⟩))

set_option backward.isDefEq.respectTransparency.types false in
/-- The first region over the thread state: entered from every unscoped buffer at the contents after the first host
    stretch, left with its output array at what its write-backs leave. -/
def R0 : RegionSeg (pcfgs (F := F)) Gen.adm (pdats m) () defs₀ Variants.none L lv 0 :=
  Pipeline.ClassA.region (pcfgs (F := F)) Gen.adm (pdats m) defs₀ Variants.none L lv 0
    (kit := launch0.toP)
    (hbody := fun c => body_obligation0 (E1 m) c)
    (hq := fun _ _ => rfl) (howed := fun _ _ => rfl) (hrec := fun _ _ => rfl)
    (hΦin := fun c => BI.Entails.refl _) (hΦout := fun c => BI.Entails.refl _)
    (hpre := fun c => by
      unfold Pipeline.prefHeld; rw [show (Finset.univ : Finset (Fin 0)) = ∅ from rfl, BI.bigSep_empty])
    (W := Gen.V1 m) (W' := Gen.V2 m (outs m))
    (hA := fun c w => rfl)
    (hF := hF0 m) (hrest := hrest0 m)

/-! ## The second region as a segment -/

theorem hA1 (c : Dev nD) (w : Fin cfg1.W) :
    (dat1 (E3 m) c).A w = Gen.V3 m (outs m) c (Proc.devRef .tc (Pipeline.arrRef spec1 w)) := by
  rw [V3_outs]; exact A_eq1 (E3 m) c w

theorem hF1 (c : Dev nD) (w : Fin cfg1.W) :
    (dat1 (E3 m) c).arrAt w cfg1.N = Gen.V4 m (outs m) c (Proc.devRef .tc (Pipeline.arrRef spec1 w)) := by
  match w with
  | ⟨0, _⟩ => exact ((dat1 (E3 m) c).arrAt_in 0 rfl _).trans ((hA1 m c 0).trans (Gen.V4_of m (outs m) c main_v4 (by decide)).symm)
  | ⟨1, _⟩ => exact ((dat1 (E3 m) c).arrAt_in 1 rfl _).trans ((hA1 m c 1).trans (Gen.V4_of m (outs m) c main_v2 (by decide)).symm)
  | ⟨2, _⟩ => exact ((dat1 (E3 m) c).arrAt_in 2 rfl _).trans ((hA1 m c 2).trans (Gen.V4_of m (outs m) c main_arg6 (by decide)).symm)
  | ⟨3, _⟩ =>
    refine (outs_four m c).symm.trans ?_
    show outs m 4 main_v5 c = Function.update (Gen.V3 m (outs m) c) main_v5 (outs m 4 main_v5 c) main_v5
    rw [Function.update_self]

theorem hrest1 (c : Dev nD) (b : Ref sig .tc) (hb : b ∉ Finset.univ.image (Pipeline.arrRef spec1)) :
    Gen.V4 m (outs m) c (Proc.devRef .tc b) = Gen.V3 m (outs m) c (Proc.devRef .tc b) :=
  Gen.V4_of m (outs m) c b (fun h => hb (by
    rw [List.mem_singleton] at h; subst h
    exact Finset.mem_image.mpr ⟨3, Finset.mem_univ _, rfl⟩))

set_option backward.isDefEq.respectTransparency.types false in
/-- The second region over the thread state: entered from every unscoped buffer at the contents after the second host
    stretch, left with its output array at what its write-backs leave; its invariant starts from and returns to the
    scoped rest and the generator register, carrying the accumulator in between. -/
def R1 : RegionSeg (pcfgs (F := F)) Gen.adm (pdats m) () defs₀ Variants.none L lv 1 :=
  Pipeline.ClassA.region (pcfgs (F := F)) Gen.adm (pdats m) defs₀ Variants.none L lv 1
    (kit := launch1.toP)
    (hbody := fun c => body_obligation1 (E3 m) c)
    (hq := fun _ _ => rfl) (howed := fun _ _ => rfl) (hrec := fun _ _ => rfl)
    (hΦin := fun c => hin1 (E3 m) c) (hΦout := fun c => hout1 (E3 m) c)
    (hpre := fun c => by
      unfold Pipeline.prefHeld; rw [show (Finset.univ : Finset (Fin 0)) = ∅ from rfl, BI.bigSep_empty])
    (W := Gen.V3 m (outs m)) (W' := Gen.V4 m (outs m))
    (hA := hA1 m)
    (hF := hF1 m) (hrest := hrest1 m)

/-! ## The launch -/

variable (ρ : Dev nD → PrngReg)

set_option backward.isDefEq.respectTransparency.types false in
/-- THE RUN: every weakly fair execution of @main from memory `m` with zero counters terminates, and every final
    memory holds each unscoped buffer at the last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V5 m (outs m) c b) :=
  Gen.run_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.ClassA.rides (U' := UR sig nD τ) c)
    (hE0 := by
      refine Pipeline.initEach L lv fun c => ?_
      unfold Pipeline.ClassA.rides
      iintro ⟨⟨-, HO, -, Hp, -⟩, -⟩
      imodintro
      isplitl [Hp]; · iexists _; iexact Hp
      iexists ∅; iexact HO)
    (hE2 := fun c => by
      unfold Pipeline.ClassA.rides
      iintro ⟨-, HO⟩; iexact HO)
    (R0 m) (fun c => BI.Entails.refl _) (fun c => BI.Entails.refl _)
    (R1 m) (fun c => BI.Entails.refl _) (fun c => BI.Entails.refl _)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c)⟩) (run_all m ρ)

end Cert.Kernel.Hand

end
-- ==== Proof.KIReg0.lean ====
/-
  The first kernel region (the group-wise dequantisation) at a parameter `V`, the buffer contents the region is
  entered from: each window's block at a grid point, what the body leaves in the output window's buffer as a
  function of the five input blocks, the body's triple, the region's proof data and its body obligation.

  The body loads its five input blocks whole, computes one value and stores it over the whole output block; nothing
  is kept between grid points, so the region's invariant is the scoped rest and the generator register, untouched.
-/
import proofs.«110790_j64330020159907_1_alg».proof.Proof.Gen.KernelIdeal.Launch
import proofs.«110790_j64330020159907_1_alg».proof.Proof.Gen.KernelIdeal.Skeleton
import proofs.«110790_j64330020159907_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev rq : Rect S256x4096 := Rect.unit (s := S256x4096) ![0, 0] S256x4096.size inb_S256x4096_S256x4096_0_0
abbrev rg : Rect S256x32 := Rect.unit (s := S256x32) ![0, 0] S256x32.size inb_S256x32_S256x32_0_0
abbrev rr : Rect S256 := Rect.unit (s := S256) ![0] S256.size inb_S256_S256_0
abbrev rc : Rect S4096 := Rect.unit (s := S4096) ![0] S4096.size inb_S4096_S4096_0

/-- The output window's staging buffer after the body, from the input windows' blocks: the one store, over the whole
    block, of the dequantised and rescaled weights. -/
def out0_5 (x0 : Vec F S256x4096 .i32) (x1 x2 : Vec F S256x32 .f32) (x3 : Vec F S4096 .f32) (x4 : Vec F S256 .f32) : Vec F S256x4096 .bf16 :=
  View.canon [⟨rq, k0_pay1 (View.ld x0 rq) (View.ld x1 rg) (View.ld x2 rg) (View.ld x4 rr) (View.ld x3 rc)⟩]

/-- The store tiles the buffer, so it covers it. -/
theorem cover0_5 (p0 : Vec F S256x4096 .bf16) (y : S256x4096.Idx) :
    ∃ pc ∈ ([⟨rq, p0⟩] : List (View.Piece (Elt F) S256x4096 .bf16)), y ∈ pc.1.set :=
  View.cover_of_tiled [⟨rq, p0⟩] S256x4096.size (by rfl) y

set_option maxHeartbeats 1000000 in
/-- The body on whole staging memrefs, the inputs' at contents `xW` and the output's at anything, runs to the
    continuation holding the inputs' as they were and the output's at `out0_5` of the inputs'. -/
theorem sound_kernel0 (c : Dev nD) (E : Set ℕ) (i : grid0.Coords)
    (arg1 : Memref sig .tc .vmem S256x4096 .i32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S4096 .f32) (harg4 : arg4.IsWhole)
    (arg5 : Memref sig .tc .vmem S256 .f32) (harg5 : arg5.IsWhole) (arg6 : Memref sig .tc .vmem S256x4096 .bf16) (harg6 : arg6.IsWhole)
    (x0 : Vec F S256x4096 .i32) (x1 x2 : Vec F S256x32 .f32) (x3 : Vec F S4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__dequant_kernel i arg1 harg1 arg2 harg2 arg3 harg3 arg4 harg4 arg5 harg5 arg6 harg6) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the region on core `c`: the arrays as the region finds them; after the body at point `t` each
    input's buffer at its block and the output's at `out0_5` of the input blocks; the invariant the scoped rest and the
    generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIReg1Defs.lean ====
/-
  The second kernel region (the tiled matrix product with its bias): what its two control cases share.

  The grid is 8 × 4 × 2; the last axis `l` walks the two halves of the contraction. The body clears its accumulator
  where `l = 0`, adds the product of the two staged blocks to it at every point, and where `l = 1` stores the
  accumulator plus the bias row into the output block. So a point is in one of two cases, decided by the parity of
  its position: even (clear, accumulate; the output block untouched and not written back) and odd (accumulate, store).
-/
import proofs.«110790_j64330020159907_1_alg».proof.Proof.Gen.KernelIdeal.Launch
import proofs.«110790_j64330020159907_1_alg».proof.Proof.Gen.KernelIdeal.Skeleton
import proofs.«110790_j64330020159907_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first branch (`l = 0`), from the grid coordinates. -/
abbrev cond1_0 (i : grid1.Coords) : Prop := (Scalar.cmpi .ne (Scalar.extui (Scalar.cmpi .eq (BitVec.ofNat 32 (i 2).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second branch (`l = 1`), from the grid coordinates. -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even positions the output window is idle: the body stores nothing into it there, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the odd positions it is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x1024 .f32 := Memref.whole cc1_scratch0
/-- The accumulator as a view: what it holds is stated through it. -/
abbrev VS1_0 : View sig .tc .vmem S1024x1024 .f32 := scM1_0.view

/-- The class invariant with the accumulator as a memref owned at some contents: what the body obligation hands
    the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KIReg1RunA.lean ====
/-
  The body of the second kernel region at an even grid position (`l = 0`): the accumulator is cleared, the product of
  the two staged blocks is added to it, and the output block is left untouched. The stores the accumulator ends
  with are found by running the body.
-/
import proofs.«110790_j64330020159907_1_alg».proof.Proof.KIReg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at an even position — none in the output block, which is
    handed back at the contents `xi3` it was found at — with the proof that on whole memrefs, the three inputs at
    their contents and the accumulator at anything, the body runs to the continuation holding the inputs as they
    were and the accumulator with its pieces written. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIReg1RunB.lean ====
/-
  The body of the second kernel region at an odd grid position (`l = 1`): the product of the two staged blocks is
  added to the accumulator the position before left, and the accumulator plus the bias row is stored over the whole
  output block. The stores the accumulator and the output block end with are found by running the body.
-/
import proofs.«110790_j64330020159907_1_alg».proof.Proof.KIReg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at an odd position, with the proof that on whole memrefs,
    the three inputs at their contents, the accumulator at the contents `xs0` the position before left and the output
    block at anything, the body runs to the continuation holding the inputs as they were and the accumulator and the
    output block with their pieces written. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.KernelIdeal.Hand

end
-- ==== Proof.KIReg1.lean ====
/-
  The second kernel region (the tiled matrix product with its bias) at a parameter `V`, the buffer contents the
  region is entered from: what the accumulator and the output block hold after each grid position, by recursion on
  the position; the region's invariant, which carries the accumulator from one position to the next; the region's
  proof data and its body obligation.

  Before the first position the invariant is the scoped rest (every scoped buffer at anything) and the generator
  register; after position `n` it has the accumulator at what position `n` left in it. At an even position the body
  overwrites the accumulator before reading it, so whatever it held is forgotten; at an odd position it reads what the
  even position before it left.
-/
import proofs.«110790_j64330020159907_1_alg».proof.Proof.KIReg1RunA
import proofs.«110790_j64330020159907_1_alg».proof.Proof.KIReg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The class invariant with the accumulator at a state `S` of the proof's choosing. -/
def phiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ (∃ r, prngReg c r))

theorem PhiA1_with (c : Dev nD) : (Pipeline.ΦA spec1 c : sProp 𝕄) = phiWith c iprop(∃ d, owns (c : Thread nD τ) scM1_0 fullShare d) := by
  rw [PhiA1_eq]; rfl

/-- The accumulator's state is taken out of the invariant and any state can be put back. -/
theorem phiWith_open (c : Dev nD) (S : sProp 𝕄) :
    phiWith c S ⊢ iprop(S ∗ ∀ S' : sProp 𝕄, S' -∗ phiWith c S') := by
  unfold phiWith
  iintro ⟨⟨B0, B1, B2, B3, B4, B5, B6, B7, B8, B9, B10, HS⟩, Hg⟩
  isplitl [HS]; · iexact HS
  iintro %S' HS'
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HS'
  iexact Hg

theorem phiWith_mono (c : Dev nD) {S S' : sProp 𝕄} (h : S ⊢ S') : phiWith c S ⊢ phiWith c S' := by
  unfold phiWith
  iintro ⟨⟨B0, B1, B2, B3, B4, B5, B6, B7, B8, B9, B10, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iapply h; iexact HS
  iexact Hg

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves -/

/-- At an even position the body stores nothing into the output block: a placeholder nothing consults, the window being
    neither written back there nor read at the next position. -/
def out1_A_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The even case's stores into the accumulator cover it. -/
theorem scover1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the even case leaves in the accumulator: its pieces read back. -/
def sout1_A_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- The odd case's store into the output block covers it. -/
theorem cover1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y

/-- What the odd case leaves in the output block: its pieces read back. -/
def out1_B_3 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The odd case's stores into the accumulator cover it. -/
theorem scover1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What the odd case leaves in the accumulator: its pieces read back. -/
def sout1_B_0 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-! ## What the output block and the accumulator hold after each position -/

/-- The pair (output block's staging buffer, accumulator) after the body at position `n`: the case the parity of `n`
    selects, run at the position's memrefs and input blocks; the odd case over the accumulator the position before left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at an even position: the even case's contents. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an odd position: the odd case's contents, over what the position before left. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first, the class's (every scoped buffer at anything);
    afterwards the accumulator at what the position before left in it. -/
def PhiS1 (c : Dev nD) : (n : ℕ) → n ≤ cfg1.N → sProp 𝕄
  | 0, _ => Pipeline.ΦA spec1 c
  | n + 1, hn => phiWith c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = phiWith c (owns (c : Thread nD τ) scM1_0 fullShare ((outsAt1 V c n hn).2)) := rfl

theorem PhiS1_pos (c : Dev nD) (n : ℕ) (h : n ≤ cfg1.N) (hz : n ≠ 0) :
    PhiS1 V c n h = phiWith c (owns (c : Thread nD τ) scM1_0 fullShare ((outsAt1 V c (n - 1) (by omega)).2)) := by
  cases n with
  | zero => exact absurd rfl hz
  | succ n => rfl

/-! ## The region's proof data -/

/-- The proof data of the region on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the parity of the position says which case it is
    in; the invariant hands the body the accumulator (at anything before an even position, at what the position
    before left before an odd one) and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  have hin : ∀ w : Fin cfg1.W, w.val < 3 → cfg1.idle w (grid1.coords t) = false := by
    intro w hw
    match w, hw with
    | ⟨0, _⟩, _ => exact liveAt1_0 t
    | ⟨1, _⟩, _ => exact liveAt1_1 t
    | ⟨2, _⟩, _ => exact liveAt1_2 t
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    have hΦ : (dat1 V c).Φ t.castSucc ⊢ phiWith c iprop(∃ d, owns (c : Thread nD τ) scM1_0 fullShare d) := by
      rw [PhiS1_castSucc V c t]
      by_cases hz : t.val = 0
      · rw [PhiS1_zero V c _ _ hz, PhiA1_with]
      · rw [PhiS1_pos V c _ _ hz]
        exact phiWith_mono c (by iintro H; iexists _; iexact H)
    iintro ⟨HΦ, Ho, ⟨%d0, H0⟩, ⟨%d1, H1⟩, ⟨%d2, H2⟩, ⟨%d3, H3⟩⟩
    ihave HΦ' := hΦ $$ HΦ
    ihave HΦ'' := (phiWith_open c _) $$ HΦ'
    icases HΦ'' with ⟨HS0, Hback⟩
    iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hback]
    · iapply Hback
      unfold owns; iexists _; isplitr
      swap; · iexact HS0
      ipureintro; exact View.read_writes_of_cover _ _ _ _ _ (scover1_A_0 c _ _ _ _ _ _ _ _ _ _ _ _ _ _ _ _)
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    rw [PhiS1_castSucc V c t, PhiS1_pos V c _ _ hz]
    iintro ⟨HΦ, Ho, ⟨%d0, H0⟩, ⟨%d1, H1⟩, ⟨%d2, H2⟩, ⟨%d3, H3⟩⟩
    ihave HΦ'' := (phiWith_open c _) $$ HΦ
    icases HΦ'' with ⟨HS0, Hback⟩
    iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hback]
    · iapply Hback
      unfold owns; iexists _; isplitr
      swap; · iexact HS0
      ipureintro; exact View.read_writes_of_cover _ _ _ _ _ (scover1_B_0 c _ _ _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last position the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_with]
  exact phiWith_mono c (by iintro H; iexists _; iexact H)

end Region1

end Cert.KernelIdeal.Hand

end
-- ==== Proof.KILaunch.lean ====
/-
  The whole run of the kernel's program: its two kernel regions as segments between the three stretches of host
  operations, and the launch. Between two items a core holds every unscoped buffer at a valuation, beside the generator
  register at some state and the core owing nothing. The valuations are folded through the program: the launch
  memory, then each host stretch's operations applied, then, after a region, the region's output array at what the
  region's write-backs leave (every other buffer as the region found it).

  The result: every weakly fair execution terminates and every final memory holds each unscoped buffer at the last
  valuation — the arguments as launched (no item writes one), the result buffer at the last reshape of what the second
  region leaves.
-/
import proofs.«110790_j64330020159907_1_alg».proof.Proof.KIReg0
import proofs.«110790_j64330020159907_1_alg».proof.Proof.KIReg1
import proofs.«110790_j64330020159907_1_alg».proof.Proof.KIRegionsV
import proofs.«110790_j64330020159907_1_alg».proof.Proof.LibClassARegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The valuations between the items -/

/-- What the first region is entered from, read at the TensorCore's references. -/
abbrev E1 : (c : Dev nD) → (b : Ref sig .tc) → Buf (Elt F) ((c : Thread nD τ).loc b) := fun c b => Gen.V1 m c b

/-- At the first region's exit: its arrays at what the pipeline leaves, every other buffer as entered. -/
def arrs0 (c : Dev nD) : Valuation τ sig (Elt F) :=
  Pipeline.withArrays spec0 c (Gen.V1 m c) fun w => (dat0 (E1 m) c).arrAt w cfg0.N

/-- The regions' unknowns with the first region's output filled in (all the second region's entry needs). -/
def outsA : Gen.Outs (F := F) := fun _ r c => arrs0 m c r

/-- What the second region is entered from, read at the TensorCore's references. -/
abbrev E3 : (c : Dev nD) → (b : Ref sig .tc) → Buf (Elt F) ((c : Thread nD τ).loc b) := fun c b => Gen.V3 m (outsA m) c b

/-- At the second region's exit: its arrays at what the pipeline leaves, every other buffer as entered. -/
def arrs1 (c : Dev nD) : Valuation τ sig (Elt F) :=
  Pipeline.withArrays spec1 c (Gen.V3 m (outsA m) c) fun w => (dat1 (E3 m) c).arrAt w cfg1.N

/-- What the two regions leave in the buffers they may change. -/
def outs : Gen.Outs (F := F) := fun J r c => if J = 2 then arrs0 m c r else arrs1 m c r

theorem outs_two (c : Dev nD) : outs m 2 main_v2 c = (dat0 (E1 m) c).arrAt 5 cfg0.N := by
  unfold outs; rw [if_pos rfl]; unfold arrs0
  exact Pipeline.withArrays_arr spec0 launch0.win.arr_inj c _ _ 5

theorem outs_four (c : Dev nD) : outs m 4 main_v5 c = (dat1 (E3 m) c).arrAt 3 cfg1.N := by
  unfold outs; rw [if_neg (by decide)]; unfold arrs1
  exact Pipeline.withArrays_arr spec1 launch1.win.arr_inj c _ _ 3

/-- The second region's entry does not depend on what the second region leaves. -/
theorem V3_outs (c : Dev nD) : Gen.V3 m (outs m) c = Gen.V3 m (outsA m) c := rfl

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

abbrev L : GSem nD τ sig → Finset Unit := fun _ => ∅
abbrev lv : GSem nD τ sig → Unit → ℕ := fun _ _ => 0

/-! ## The first region as a segment -/

theorem hF0 (c : Dev nD) (w : Fin cfg0.W) :
    (dat0 (E1 m) c).arrAt w cfg0.N = Gen.V2 m (outs m) c (Proc.devRef .tc (Pipeline.arrRef spec0 w)) := by
  match w with
  | ⟨0, _⟩ => exact ((dat0 (E1 m) c).arrAt_in 0 rfl _).trans ((A_eq0 (E1 m) c 0).trans (Gen.V2_of m (outs m) c main_arg1 (by decide)).symm)
  | ⟨1, _⟩ => exact ((dat0 (E1 m) c).arrAt_in 1 rfl _).trans ((A_eq0 (E1 m) c 1).trans (Gen.V2_of m (outs m) c main_v0 (by decide)).symm)
  | ⟨2, _⟩ => exact ((dat0 (E1 m) c).arrAt_in 2 rfl _).trans ((A_eq0 (E1 m) c 2).trans (Gen.V2_of m (outs m) c main_v1 (by decide)).symm)
  | ⟨3, _⟩ => exact ((dat0 (E1 m) c).arrAt_in 3 rfl _).trans ((A_eq0 (E1 m) c 3).trans (Gen.V2_of m (outs m) c main_arg4 (by decide)).symm)
  | ⟨4, _⟩ => exact ((dat0 (E1 m) c).arrAt_in 4 rfl _).trans ((A_eq0 (E1 m) c 4).trans (Gen.V2_of m (outs m) c main_arg5 (by decide)).symm)
  | ⟨5, _⟩ =>
    refine (outs_two m c).symm.trans ?_
    show outs m 2 main_v2 c = Function.update (Gen.V1 m c) main_v2 (outs m 2 main_v2 c) main_v2
    rw [Function.update_self]

theorem hrest0 (c : Dev nD) (b : Ref sig .tc) (hb : b ∉ Finset.univ.image (Pipeline.arrRef spec0)) :
    Gen.V2 m (outs m) c (Proc.devRef .tc b) = Gen.V1 m c (Proc.devRef .tc b) :=
  Gen.V2_of m (outs m) c b (fun h => hb (by
    rw [List.mem_singleton] at h; subst h
    exact Finset.mem_image.mpr ⟨5, Finset.mem_univ _, rfl⟩))

set_option backward.isDefEq.respectTransparency.types false in
/-- The first region over the thread state: entered from every unscoped buffer at the contents after the first host
    stretch, left with its output array at what its write-backs leave. -/
def R0 : RegionSeg (pcfgs (F := F)) Gen.adm (pdats m) () defs₀ Variants.none L lv 0 :=
  Pipeline.ClassA.region (pcfgs (F := F)) Gen.adm (pdats m) defs₀ Variants.none L lv 0
    (kit := launch0.toP)
    (hbody := fun c => body_obligation0 (E1 m) c)
    (hq := fun _ _ => rfl) (howed := fun _ _ => rfl) (hrec := fun _ _ => rfl)
    (hΦin := fun c => BI.Entails.refl _) (hΦout := fun c => BI.Entails.refl _)
    (hpre := fun c => by
      unfold Pipeline.prefHeld; rw [show (Finset.univ : Finset (Fin 0)) = ∅ from rfl, BI.bigSep_empty])
    (W := Gen.V1 m) (W' := Gen.V2 m (outs m))
    (hA := fun c w => rfl)
    (hF := hF0 m) (hrest := hrest0 m)

/-! ## The second region as a segment -/

theorem hA1 (c : Dev nD) (w : Fin cfg1.W) :
    (dat1 (E3 m) c).A w = Gen.V3 m (outs m) c (Proc.devRef .tc (Pipeline.arrRef spec1 w)) := by
  rw [V3_outs]; exact A_eq1 (E3 m) c w

theorem hF1 (c : Dev nD) (w : Fin cfg1.W) :
    (dat1 (E3 m) c).arrAt w cfg1.N = Gen.V4 m (outs m) c (Proc.devRef .tc (Pipeline.arrRef spec1 w)) := by
  match w with
  | ⟨0, _⟩ => exact ((dat1 (E3 m) c).arrAt_in 0 rfl _).trans ((hA1 m c 0).trans (Gen.V4_of m (outs m) c main_v4 (by decide)).symm)
  | ⟨1, _⟩ => exact ((dat1 (E3 m) c).arrAt_in 1 rfl _).trans ((hA1 m c 1).trans (Gen.V4_of m (outs m) c main_v2 (by decide)).symm)
  | ⟨2, _⟩ => exact ((dat1 (E3 m) c).arrAt_in 2 rfl _).trans ((hA1 m c 2).trans (Gen.V4_of m (outs m) c main_arg6 (by decide)).symm)
  | ⟨3, _⟩ =>
    refine (outs_four m c).symm.trans ?_
    show outs m 4 main_v5 c = Function.update (Gen.V3 m (outs m) c) main_v5 (outs m 4 main_v5 c) main_v5
    rw [Function.update_self]

theorem hrest1 (c : Dev nD) (b : Ref sig .tc) (hb : b ∉ Finset.univ.image (Pipeline.arrRef spec1)) :
    Gen.V4 m (outs m) c (Proc.devRef .tc b) = Gen.V3 m (outs m) c (Proc.devRef .tc b) :=
  Gen.V4_of m (outs m) c b (fun h => hb (by
    rw [List.mem_singleton] at h; subst h
    exact Finset.mem_image.mpr ⟨3, Finset.mem_univ _, rfl⟩))

set_option backward.isDefEq.respectTransparency.types false in
/-- The second region over the thread state: entered from every unscoped buffer at the contents after the second host
    stretch, left with its output array at what its write-backs leave; its invariant starts from and returns to the
    scoped rest and the generator register, carrying the accumulator in between. -/
def R1 : RegionSeg (pcfgs (F := F)) Gen.adm (pdats m) () defs₀ Variants.none L lv 1 :=
  Pipeline.ClassA.region (pcfgs (F := F)) Gen.adm (pdats m) defs₀ Variants.none L lv 1
    (kit := launch1.toP)
    (hbody := fun c => body_obligation1 (E3 m) c)
    (hq := fun _ _ => rfl) (howed := fun _ _ => rfl) (hrec := fun _ _ => rfl)
    (hΦin := fun c => hin1 (E3 m) c) (hΦout := fun c => hout1 (E3 m) c)
    (hpre := fun c => by
      unfold Pipeline.prefHeld; rw [show (Finset.univ : Finset (Fin 0)) = ∅ from rfl, BI.bigSep_empty])
    (W := Gen.V3 m (outs m)) (W' := Gen.V4 m (outs m))
    (hA := hA1 m)
    (hF := hF1 m) (hrest := hrest1 m)

/-! ## The launch -/

variable (ρ : Dev nD → PrngReg)

set_option backward.isDefEq.respectTransparency.types false in
/-- THE RUN: every weakly fair execution of @main from memory `m` with zero counters terminates, and every final
    memory holds each unscoped buffer at the last valuation. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V5 m (outs m) c b) :=
  Gen.run_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Pipeline.ClassA.rides (U' := UR sig nD τ) c)
    (hE0 := by
      refine Pipeline.initEach L lv fun c => ?_
      unfold Pipeline.ClassA.rides
      iintro ⟨⟨-, HO, -, Hp, -⟩, -⟩
      imodintro
      isplitl [Hp]; · iexists _; iexact Hp
      iexists ∅; iexact HO)
    (hE2 := fun c => by
      unfold Pipeline.ClassA.rides
      iintro ⟨-, HO⟩; iexact HO)
    (R0 m) (fun c => BI.Entails.refl _) (fun c => BI.Entails.refl _)
    (R1 m) (fun c => BI.Entails.refl _) (fun c => BI.Entails.refl _)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c)⟩) (run_all m ρ)

end Cert.KernelIdeal.Hand

end
-- ==== Proof.Spec.lean ====
/-
  The function both programs compute, over the extended reals.

  A quantised weight `q[k, n]` is dequantised group-wise: the 4096 columns of a row fall into 32 groups of 128, and
  group `g = n / 128` of row `k` has its own zero point and scale. The dequantised weight is then rescaled by a
  per-row factor `mu2[k]` and a per-column factor `mu1[n]`:

      w[k, n] = (((q[k, n] - ze[k, g, 0]) * sc[k, g, 0]) * mu2[k]) * mu1[n].

  The result is the linear layer `out[b, s, k] = (∑ n, x[b, s, n] * w[k, n]) + bias[k]`.

  The order of the factors in `w` is the order in which both programs multiply; nothing here needs a law beyond
  associativity and commutativity of addition, which hold on the extended reals without any finiteness.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SX : Shape := ⟨3, ![4, 2048, 4096]⟩
abbrev SW : Shape := ⟨2, ![4096, 4096]⟩
abbrev SG : Shape := ⟨3, ![4096, 32, 1]⟩
abbrev SV : Shape := ⟨1, ![4096]⟩

/-- The group a column belongs to. -/
def grp (n : Fin 4096) : Fin 32 := ⟨n.val / 128, by have := n.isLt; omega⟩

/-- The dequantised, rescaled weight at row `k`, column `n`. -/
def wd (q : Vec Ideal SW .i32) (sc ze : Vec Ideal SG .f32) (mu1 mu2 : Vec Ideal SV .f32) (k n : Fin 4096) : EReal :=
  (((FloatOps.sitofp (F := Ideal) .f32 (q (ix2 k n)) - ze (ix3 k (grp n) (0 : Fin 1))) * sc (ix3 k (grp n) (0 : Fin 1)))
    * mu2 (ix1 k)) * mu1 (ix1 n)

/-- The linear layer at batch `b`, position `s`, output feature `k`. -/
def lin (x : Vec Ideal SX .f32) (q : Vec Ideal SW .i32) (sc ze : Vec Ideal SG .f32) (mu1 mu2 bias : Vec Ideal SV .f32)
    (b : Fin 4) (s : Fin 2048) (k : Fin 4096) : EReal :=
  (∑ n : Fin 4096, x (ix3 b s n) * wd q sc ze mu1 mu2 k n) + bias (ix1 k)

/-- The whole result array. -/
def G (x : Vec Ideal SX .f32) (q : Vec Ideal SW .i32) (sc ze : Vec Ideal SG .f32) (mu1 mu2 bias : Vec Ideal SV .f32) :
    Vec Ideal SX .f32 :=
  fun i => lin x q sc ze mu1 mu2 bias (i 0) (i 1) (i 2)

abbrev SM : Shape := ⟨2, ![8192, 4096]⟩
abbrev SG2 : Shape := ⟨2, ![4096, 32]⟩

/-- The same weight from zero points and scales laid out as a matrix of 4096 rows and 32 groups. -/
def wd2 (q : Vec Ideal SW .i32) (sc2 ze2 : Vec Ideal SG2 .f32) (mu1 mu2 : Vec Ideal SV .f32) (k n : Fin 4096) : EReal :=
  (((FloatOps.sitofp (F := Ideal) .f32 (q (ix2 k n)) - ze2 (ix2 k (grp n))) * sc2 (ix2 k (grp n)))
    * mu2 (ix1 k)) * mu1 (ix1 n)

/-- The dequantised weight matrix, as the first kernel region leaves it. -/
def W2 (q : Vec Ideal SW .i32) (sc2 ze2 : Vec Ideal SG2 .f32) (mu1 mu2 : Vec Ideal SV .f32) : Vec Ideal SW .bf16 :=
  fun j => wd2 q sc2 ze2 mu1 mu2 (j 0) (j 1)

/-- One entry of the tiled product: the contraction accumulated from zero over its first half, then its second half,
    then the bias added. -/
def mmAt (xb : Vec Ideal SM .bf16) (w : Vec Ideal SW .bf16) (bias : Vec Ideal SV .f32) (r : Fin 8192) (k : Fin 4096) : EReal :=
  ((0 + ∑ j : Fin 2048, xb (ix2 r (⟨j.val, by have := j.isLt; omega⟩ : Fin 4096)) * w (ix2 k (⟨j.val, by have := j.isLt; omega⟩ : Fin 4096)))
    + ∑ j : Fin 2048, xb (ix2 r (⟨2048 + j.val, by have := j.isLt; omega⟩ : Fin 4096)) * w (ix2 k (⟨2048 + j.val, by have := j.isLt; omega⟩ : Fin 4096)))
    + bias (ix1 k)

/-- The product matrix, as the second kernel region leaves it. -/
def MM (xb : Vec Ideal SM .bf16) (w : Vec Ideal SW .bf16) (bias : Vec Ideal SV .f32) : Vec Ideal SM .f32 :=
  fun j => mmAt xb w bias (j 0) (j 1)

/-- A sum over 4096 columns is the sum over the first 2048 plus the sum over the last 2048, started from zero: the
    order in which a contraction tiled in two halves accumulates. -/
theorem sum_two_halves (f : Fin 4096 → EReal) :
    (0 + ∑ j : Fin 2048, f ⟨j.val, by have := j.isLt; omega⟩) + ∑ j : Fin 2048, f ⟨2048 + j.val, by have := j.isLt; omega⟩
      = ∑ n : Fin 4096, f n := by
  rw [zero_add]
  have h := Fin.sum_univ_add (M := EReal) (a := 2048) (b := 2048) (fun n : Fin (2048 + 2048) => f ⟨n.val, by have := n.isLt; omega⟩)
  simp only [Fin.coe_castAdd, Fin.coe_natAdd] at h
  exact h.symm

end Cert.Spec

end
-- ==== Proof.KIVal0.lean ====
/-
  What the first kernel region leaves in its output array, over the extended reals: the dequantised, rescaled weight
  matrix `Cert.Spec.W2` of the arrays the region is entered from. Point `t` of the grid writes rows
  `256 t … 256 t + 255` of the matrix, all 4096 columns; the sixteen blocks tile it.
-/
import proofs.«110790_j64330020159907_1_alg».proof.Proof.KIReg0
import proofs.«110790_j64330020159907_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

section Layout
variable {α : Type}

/-- A row of 32 groups of 128 read as a row of 4096: column `n` is place `r` of group `g` when `128 g + r = n`. -/
theorem cast_groups_flat_apply (x : S256x32x128.Idx → α) (h : S256x32x128.ShapeCasts S256x4096) (p : Fin 256) (g : Fin 32)
    (r : Fin 128) (n : Fin 4096) (hn : g.val * 128 + r.val = n.val) : shapeCast S256x4096 x h (ix2 p n) = x (ix3 p g r) :=
  shapeCast_apply x h _ _ (by
    rw [Shape.rowMajor_val_three, Shape.rowMajor_val_two]
    show (p.val * 32 + g.val) * 128 + r.val = p.val * 4096 + n.val
    omega)

/-- A row of 4096 read as 32 groups of 128. -/
theorem cast_flat_groups_apply (x : S256x4096.Idx → α) (h : S256x4096.ShapeCasts S256x32x128) (p : Fin 256) (g : Fin 32)
    (r : Fin 128) (n : Fin 4096) (hn : g.val * 128 + r.val = n.val) : shapeCast S256x32x128 x h (ix3 p g r) = x (ix2 p n) :=
  shapeCast_apply x h _ _ (by
    rw [Shape.rowMajor_val_three, Shape.rowMajor_val_two]
    show p.val * 4096 + n.val = (p.val * 32 + g.val) * 128 + r.val
    omega)

/-- A trailing unit axis added to a matrix. -/
theorem cast_add_unit_apply (x : S256x32.Idx → α) (h : S256x32.ShapeCasts S256x32x1) (p : Fin 256) (g : Fin 32) (u : Fin 1) :
    shapeCast S256x32x1 x h (ix3 p g u) = x (ix2 p g) :=
  shapeCast_apply x h _ _ (by
    have hu : u.val = 0 := by omega
    rw [Shape.rowMajor_val_three, Shape.rowMajor_val_two]
    show p.val * 32 + g.val = (p.val * 32 + g.val) * 1 + u.val
    omega)

/-- A per-group value spread over the 128 places of its group. -/
theorem bcast_group_apply (x : S256x32x1.Idx → α) (h : S256x32x1.Broadcasts S256x32x128) (p : Fin 256) (g : Fin 32) (r : Fin 128) :
    broadcastTo S256x32x128 x h (ix3 p g r) = x (ix3 p g (0 : Fin 1)) :=
  broadcastTo_apply x h _ _ fun a => match a with | ⟨0, _⟩ => rfl | ⟨1, _⟩ => rfl | ⟨2, _⟩ => rfl

/-- A vector made a column. -/
theorem cast_column_apply (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_two, Shape.rowMajor_val_one]
    show p.val = p.val * 1 + u.val
    omega)

/-- A column spread over the 4096 columns. -/
theorem bcast_column_apply (x : S256x1.Idx → α) (h : S256x1.Broadcasts S256x4096) (p : Fin 256) (n : Fin 4096) :
    broadcastTo S256x4096 x h (ix2 p n) = x (ix2 p (0 : Fin 1)) :=
  broadcastTo_apply x h _ _ fun a => match a with | ⟨0, _⟩ => rfl | ⟨1, _⟩ => rfl

/-- A row spread over the 256 rows. -/
theorem bcast_row_apply (x : S1x4096.Idx → α) (h : S1x4096.Broadcasts S256x4096) (p : Fin 256) (n : Fin 4096) :
    broadcastTo S256x4096 x h (ix2 p n) = x (ix2 (0 : Fin 1) n) :=
  broadcastTo_apply x h _ _ fun a => match a with | ⟨0, _⟩ => rfl | ⟨1, _⟩ => rfl

end Layout

/-- The group of a column and its place inside the group recompose the column. -/
theorem grp_decomp (n : Fin 4096) : (Cert.Spec.grp n).val * 128 + n.val % 128 = n.val := by
  show n.val / 128 * 128 + n.val % 128 = n.val
  omega

/-- The body's value at row `p`, column `n` of the block: the quantised weight less its group's zero point, times its
    group's scale, times the row factor, times the column factor. -/
theorem pay_apply (x0 : Vec Ideal S256x4096 .i32) (x1 x2 : Vec Ideal S256x32 .f32) (x14 : Vec Ideal S256 .f32)
    (x18 : Vec Ideal S4096 .f32) (p : Fin 256) (n : Fin 4096) :
    k0_pay1 (F := Ideal) x0 x1 x2 x14 x18 (ix2 p n)
      = (((FloatOps.sitofp (F := Ideal) .f32 (x0 (ix2 p n)) - x2 (ix2 p (Cert.Spec.grp n))) * x1 (ix2 p (Cert.Spec.grp n)))
          * x14 (ix1 p)) * x18 (ix1 n) := by
  have hr : n.val % 128 < 128 := Nat.mod_lt _ (by decide)
  have hd := grp_decomp n
  unfold k0_pay1
  rw [truncf_apply, mulf_apply, mulf_apply,
    cast_groups_flat_apply _ _ p (Cert.Spec.grp n) ⟨n.val % 128, hr⟩ n hd,
    mulf_apply, subf_apply,
    cast_flat_groups_apply _ _ p (Cert.Spec.grp n) ⟨n.val % 128, hr⟩ n hd, sitofp_apply,
    bcast_group_apply, bcast_group_apply, cast_add_unit_apply, cast_add_unit_apply, shapeCast_self, shapeCast_self,
    bcast_column_apply, cast_column_apply, bcast_row_apply, shapeCast_a_1a_apply]

theorem zeros2 : (![0, 0] : Fin 2 → Nat) = fun _ => 0 := funext fun a => match a with | ⟨0, _⟩ => rfl | ⟨1, _⟩ => rfl
theorem zeros1 : (![0] : Fin 1 → Nat) = fun _ => 0 := funext fun a => match a with | ⟨0, _⟩ => rfl

/-- Where each window's block sits at point `t`: the row windows at block `t` of their arrays, column block 0; the column
    factor whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 1) = t.val
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- The quantised weights' block at point `t` is rows `256 t … 256 t + 255` of the array. -/
theorem blk0_apply (c : Dev nD) (t : Fin cfg0.N) (p : Fin 256) (q : Fin 4096) (k : Fin 4096) (hk : k.val = 256 * t.val + p.val) :
    (iblk0 V c 0 t : Vec Ideal S256x4096 .i32) (ix2 p q) = (V c main_arg1 : S4096x4096.Idx → Elt Ideal .i32) (ix2 k q) := by
  obtain ⟨e00, e01, e10, e11, e20, e21, e3, e4, e50, e51⟩ := idx_facts0 t
  unfold iblk0
  rw [View.read_apply]
  show V c main_arg1 _ = V c main_arg1 _
  congr 1
  funext a; apply Fin.ext
  match a with
  | ⟨0, _⟩ => show win0_0.index t (0 : Fin 2) * 256 + 1 * p.val = k.val; omega
  | ⟨1, _⟩ => show win0_0.index t (1 : Fin 2) * 4096 + 1 * q.val = q.val; omega

/-- The scales' block at point `t` is the same rows of the scales. -/
theorem blk1_apply (c : Dev nD) (t : Fin cfg0.N) (p : Fin 256) (g : Fin 32) (k : Fin 4096) (hk : k.val = 256 * t.val + p.val) :
    (iblk0 V c 1 t : Vec Ideal S256x32 .f32) (ix2 p g) = (V c main_v0 : S4096x32.Idx → Elt Ideal .f32) (ix2 k g) := by
  obtain ⟨e00, e01, e10, e11, e20, e21, e3, e4, e50, e51⟩ := idx_facts0 t
  unfold iblk0
  rw [View.read_apply]
  show V c main_v0 _ = V c main_v0 _
  congr 1
  funext a; apply Fin.ext
  match a with
  | ⟨0, _⟩ => show win0_1.index t (0 : Fin 2) * 256 + 1 * p.val = k.val; omega
  | ⟨1, _⟩ => show win0_1.index t (1 : Fin 2) * 32 + 1 * g.val = g.val; omega

/-- The zero points' block at point `t` is the same rows of the zero points. -/
theorem blk2_apply (c : Dev nD) (t : Fin cfg0.N) (p : Fin 256) (g : Fin 32) (k : Fin 4096) (hk : k.val = 256 * t.val + p.val) :
    (iblk0 V c 2 t : Vec Ideal S256x32 .f32) (ix2 p g) = (V c main_v1 : S4096x32.Idx → Elt Ideal .f32) (ix2 k g) := by
  obtain ⟨e00, e01, e10, e11, e20, e21, e3, e4, e50, e51⟩ := idx_facts0 t
  unfold iblk0
  rw [View.read_apply]
  show V c main_v1 _ = V c main_v1 _
  congr 1
  funext a; apply Fin.ext
  match a with
  | ⟨0, _⟩ => show win0_2.index t (0 : Fin 2) * 256 + 1 * p.val = k.val; omega
  | ⟨1, _⟩ => show win0_2.index t (1 : Fin 2) * 32 + 1 * g.val = g.val; omega

/-- The column factor's block is the whole vector at every point. -/
theorem blk3_apply (c : Dev nD) (t : Fin cfg0.N) (q : Fin 4096) :
    (iblk0 V c 3 t : Vec Ideal S4096 .f32) (ix1 q) = (V c main_arg4 : S4096.Idx → Elt Ideal .f32) (ix1 q) := by
  obtain ⟨e00, e01, e10, e11, e20, e21, e3, e4, e50, e51⟩ := idx_facts0 t
  unfold iblk0
  rw [View.read_apply]
  show V c main_arg4 _ = V c main_arg4 _
  congr 1
  funext a; apply Fin.ext
  match a with
  | ⟨0, _⟩ => show win0_3.index t (0 : Fin 1) * 4096 + 1 * q.val = q.val; omega

/-- The row factor's block at point `t` is entries `256 t … 256 t + 255` of the vector. -/
theorem blk4_apply (c : Dev nD) (t : Fin cfg0.N) (p : Fin 256) (k : Fin 4096) (hk : k.val = 256 * t.val + p.val) :
    (iblk0 V c 4 t : Vec Ideal S256 .f32) (ix1 p) = (V c main_arg5 : S4096.Idx → Elt Ideal .f32) (ix1 k) := by
  obtain ⟨e00, e01, e10, e11, e20, e21, e3, e4, e50, e51⟩ := idx_facts0 t
  unfold iblk0
  rw [View.read_apply]
  show V c main_arg5 _ = V c main_arg5 _
  congr 1
  funext a; apply Fin.ext
  match a with
  | ⟨0, _⟩ => show win0_4.index t (0 : Fin 1) * 256 + 1 * p.val = k.val; omega

/-- What point `t` writes back is its block of the weight matrix of the entry arrays. -/
theorem flushed0_eq (c : Dev nD) (t : Fin cfg0.N) :
    (dat0 (F := Ideal) V c).flushed 5 t = ((cfg0.win 5).blk t).view.read (Elt Ideal)
      (Cert.Spec.W2 (V c main_arg1) (V c main_v0) (V c main_v1) (V c main_arg4) (V c main_arg5)) := by
  show (cfg0.win 5).cut (grid0.coords t) ((dat0 V c).after 5 t) = _
  rw [after0_5]
  unfold out0_5
  rw [View.canon_unit_zero zeros2]
  simp only [View.ld_unit_zero (S := S256x4096) zeros2, View.ld_unit_zero (S := S256x32) zeros2,
    View.ld_unit_zero (S := S256) zeros1, View.ld_unit_zero (S := S4096) zeros1]
  funext j
  obtain ⟨p, q, rfl⟩ : ∃ (p : Fin 256) (q : Fin 4096), j = ix2 p q := ⟨j 0, j 1, eq_ix2 j⟩
  obtain ⟨e00, e01, e10, e11, e20, e21, e3, e4, e50, e51⟩ := idx_facts0 t
  have ht : t.val < 16 := t.isLt
  have hp : p.val < 256 := p.isLt
  obtain ⟨k, hk⟩ : ∃ k : Fin 4096, k.val = 256 * t.val + p.val := ⟨⟨256 * t.val + p.val, by omega⟩, rfl⟩
  have hemb : ((cfg0.win 5).blk t).view.emb (ix2 p q) = (ix2 k q : S4096x4096.Idx) := by
    funext a; apply Fin.ext
    match a with
    | ⟨0, _⟩ => show win0_5.index t (0 : Fin 2) * 256 + 1 * p.val = k.val; omega
    | ⟨1, _⟩ => show win0_5.index t (1 : Fin 2) * 4096 + 1 * q.val = q.val; omega
  show k0_pay1 (F := Ideal) (iblk0 V c 0 t) (iblk0 V c 1 t) (iblk0 V c 2 t) (iblk0 V c 4 t) (iblk0 V c 3 t) (ix2 p q)
    = Cert.Spec.W2 (V c main_arg1) (V c main_v0) (V c main_v1) (V c main_arg4) (V c main_arg5) (((cfg0.win 5).blk t).view.emb (ix2 p q))
  rw [hemb]
  refine (pay_apply _ _ _ _ _ p q).trans ?_
  rw [blk0_apply V c t p q k hk, blk1_apply V c t p _ k hk, blk2_apply V c t p _ k hk, blk3_apply V c t q, blk4_apply V c t p k hk]
  rfl

end Blocks

/-- An index of the output array is in point `t`'s block iff each coordinate is in the block's range on its axis. -/
theorem mem_blk0_5 (t : Fin cfg0.N) (i : S4096x4096.Idx) :
    i ∈ ((cfg0.win 5).blk t).view.set
      ↔ ∀ a : Fin 2, win0_5.index t a * S256x4096.size a ≤ (i a).val ∧ (i a).val < win0_5.index t a * S256x4096.size a + S256x4096.size a := by
  show i ∈ ((View.whole main_v2).slice (win0_5.rect t)).set ↔ _
  rw [View.set_slice_whole, Rect.mem_set_unit]
  exact Iff.rfl

/-- Row `r` of the output array is written back by point `r / 256`: the sixteen blocks tile the array. -/
theorem cover0_out (i : S4096x4096.Idx) : ∃ t : Fin cfg0.N, (cfg0.win 5).flush t = true ∧ i ∈ ((cfg0.win 5).blk t).view.set := by
  have hi0 : (i 0).val < 4096 := idx2_lt0 i
  have hi1 : (i 1).val < 4096 := idx2_lt1 i
  obtain ⟨t, ht⟩ : ∃ t : Fin cfg0.N, t.val = (i 0).val / 256 := ⟨⟨(i 0).val / 256, by show (i 0).val / 256 < 16; omega⟩, rfl⟩
  obtain ⟨e00, e01, e10, e11, e20, e21, e3, e4, e50, e51⟩ := idx_facts0 t
  refine ⟨t, flush0_5 t, ?_⟩
  rw [mem_blk0_5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 4096 ≤ (i 1).val ∧ (i 1).val < win0_5.index t (1 : Fin 2) * 4096 + 4096; omega

/-- After the region's last point its output array is the weight matrix of the entry arrays. -/
theorem final0 (V : (c : Dev nD) → (b : Ref sig .tc) → Buf (Elt Ideal) ((c : Thread nD τ).loc b)) (c : Dev nD) :
    (dat0 (F := Ideal) V c).arrAt 5 cfg0.N
      = Cert.Spec.W2 (V c main_arg1) (V c main_v0) (V c main_v1) (V c main_arg4) (V c main_arg5) :=
  (dat0 (F := Ideal) V c).arrAt_eq_of_cover 5
    (Cert.Spec.W2 (V c main_arg1) (V c main_v0) (V c main_v1) (V c main_arg4) (V c main_arg5))
    (fun t _ => flushed0_eq V c t) cover0_out

end Cert.KernelIdeal.Hand

end
-- ==== Proof.KIVal1.lean ====
/-
  What the second kernel region leaves in its output array, over the extended reals: the product matrix
  `Cert.Spec.MM` of the arrays the region is entered from. The grid is 8 × 4 × 2: position `t` has row block
  `t / 8`, column block `(t / 2) % 4` and contraction half `t % 2`. After an even position the accumulator holds zero
  plus the first half of the contraction; after the odd position that follows it holds that plus the second half, and
  the output block, written back at the odd positions, holds the accumulator plus the bias row. The 32 output blocks
  of 1024 × 1024 tile the 8192 × 4096 matrix.

  The steps: what each case of the body leaves, as the body's arithmetic of the staged blocks; that arithmetic at an
  entry (the zero block, the accumulator plus the sum over the 2048 columns of a half of the products of the two
  blocks' rows, the accumulator plus the bias entry of the column); each staged block read where its window places it
  in its array; the output block after an odd position as the product matrix's entry at the block's place; the
  write-backs at the odd positions and their cover of the array.
-/
import proofs.«110790_j64330020159907_1_alg».proof.Proof.KIReg1
import proofs.«110790_j64330020159907_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)

/-! ## What each case of the body leaves, as the body's arithmetic of the staged blocks -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- At an even position the accumulator is left at the zero block plus the product of the two staged blocks. -/
theorem sout1_A_0_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x2048 .bf16) (x1 : Vec F S1024x2048 .bf16) (x2 : Vec F S1024 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x2048) hz2]

/-- At an odd position the accumulator is left at what it held plus the product of the two staged blocks. -/
theorem sout1_B_0_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg7.read_unread, View.ld_unit_zero (S := S1024x2048) hz2, View.ld_unit_zero (S := S1024x1024) hz2]

/-- At an odd position the output block is left at the updated accumulator plus the bias row. -/
theorem out1_B_3_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x2048 .bf16) (x1 : Vec F S1024x2048 .bf16) (x2 : Vec F S1024 .f32) (xs0 : Vec F S1024x1024 .f32) :
    out1_B_3 c i arg3 harg3 arg4 harg4 arg5 harg5 arg6 harg6 arg7 harg7 hc0 hc1 x0 x1 x2 xs0 = k1_pay3 (k1_pay2 xs0 x0 x1) x2 := by
  unfold out1_B_3
  rw [View.read_writes_eq_canon _ _ _ (cover1_B_3 c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg5.read_unread, harg7.read_unread, View.readCov_unit_zero (S := S1024x1024) _ hz2, View.ld_unit_zero (S := S1024x2048) hz2, View.ld_unit_zero (S := S1024x1024) hz2, View.ld_unit_zero (S := S1024) hz1]

end Pieces

/-! ## The body's arithmetic at an entry, over the extended reals -/

section Payloads

/-- The product's operand indices: the left operand is read at (output row, contraction index), the right operand at
    (output column, contraction index). -/
theorem lhs_mm_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_mm_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_mm_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_mm_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The zero block. -/
theorem pay1_apply (p q : Fin 1024) : k1_pay1 (F := Ideal) (ix2 p q) = 0 := by
  unfold k1_pay1
  simp only [shapeCast_self]
  show Ideal.ofBits .f32 0x00000000#32 = 0
  exact Ideal.ofBits_zero_f32

/-- The accumulator's update: what it held plus the product of the two blocks, rows against rows. -/
theorem pay2_apply (xs : Vec Ideal S1024x1024 .f32) (x0 x1 : Vec Ideal S1024x2048 .bf16) (p q : Fin 1024) :
    k1_pay2 (F := Ideal) xs x0 x1 (ix2 p q) = xs (ix2 p q) + ∑ j : Fin 2048, x0 (ix2 p j) * x1 (ix2 q j) := by
  unfold k1_pay2
  simp only [shapeCast_self]
  refine (addf_apply _ _ _).trans ?_
  refine congrArg (xs (ix2 p q) + ·) ?_
  refine (Ideal.matmul_constant_zero_apply (φ₁ := .bf16) (φ₂ := .bf16) dot_S1024x2048_S1024x2048_S1024x1024_1_1_0_0_n_n none x0 x1 (ix2 p q)).trans ?_
  rw [← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-- The output block: the accumulator plus the bias row. -/
theorem pay3_apply (acc : Vec Ideal S1024x1024 .f32) (b : Vec Ideal S1024 .f32) (p q : Fin 1024) :
    k1_pay3 (F := Ideal) acc b (ix2 p q) = acc (ix2 p q) + b (ix1 q) := by
  unfold k1_pay3
  refine (addf_apply _ _ _).trans ?_
  refine congrArg (acc (ix2 p q) + ·) ?_
  refine (broadcastTo_apply _ broadcasts_S1x1024_S1024x1024 (ix2 p q) (ix2 (0 : Fin 1) q) (fun a => by
    match a with
    | ⟨0, _⟩ => rfl
    | ⟨1, _⟩ => rfl)).trans ?_
  exact shapeCast_apply b shapeCasts_S1024_S1x1024 (ix2 (0 : Fin 1) q) (ix1 q) (by
    rw [Shape.rowMajor_val_one, Shape.rowMajor_val_two]
    show q.val = (0 : Fin 1).val * 1024 + q.val
    simp)

end Payloads

/-! ## The output block after an odd position, the write-backs and their cover -/

section Value

variable (V : (c : Dev nD) → (b : Ref sig .tc) → Buf (Elt Ideal) ((c : Thread nD τ).loc b))

/-- The staged blocks at a position and the arrays they are cut from, at their literal types. -/
abbrev xblk (c : Dev nD) (t : Fin cfg1.N) : Vec Ideal S1024x2048 .bf16 := iblk1 V c 0 t
abbrev wblk (c : Dev nD) (t : Fin cfg1.N) : Vec Ideal S1024x2048 .bf16 := iblk1 V c 1 t
abbrev bblk (c : Dev nD) (t : Fin cfg1.N) : Vec Ideal S1024 .f32 := iblk1 V c 2 t
abbrev xarr (c : Dev nD) : Vec Ideal S8192x4096 .bf16 := V c main_v4
abbrev warr (c : Dev nD) : Vec Ideal S4096x4096 .bf16 := V c main_v2
abbrev barr (c : Dev nD) : Vec Ideal S4096 .f32 := V c main_arg6

/-- The position before `t`. -/
abbrev pred1 (t : Fin cfg1.N) : Fin cfg1.N := ⟨t.val - 1, Nat.lt_of_le_of_lt (Nat.sub_le _ _) t.isLt⟩

/-- The block indices at position `t`: row block `t / 8`, column block `(t / 2) % 4`, contraction half `t % 2`. -/
theorem idx_facts1 : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 1) = t.val / 2 % 4
    ∧ win1_3.index t (0 : Fin 2) = t.val / 8 ∧ win1_3.index t (1 : Fin 2) = t.val / 2 % 4 :=
  (by decide +kernel : ∀ t : Fin grid1.N, _)

/-- The activations' block at `t` is rows `1024 (t / 8) ..`, columns `2048 (t % 2) ..` of their array. -/
theorem xblk_apply (c : Dev nD) (t : Fin cfg1.N) (p : Fin 1024) (j : Fin 2048) (r : Fin 8192) (k : Fin 4096)
    (hr : r.val = t.val / 8 * 1024 + p.val) (hk : k.val = t.val % 2 * 2048 + j.val) :
    xblk V c t (ix2 p j) = xarr V c (ix2 r k) := by
  obtain ⟨e0, e1, -⟩ := idx_facts1 t
  show ((cfg1.win 0).blk t).view.read (Elt Ideal) (V c (Pipeline.arrRef spec1 0)) (ix2 p j) = xarr V c (ix2 r k)
  rw [View.read_apply]
  show xarr V c _ = xarr V c _
  refine congrArg (xarr V c) (funext fun a => Fin.ext ?_)
  match a with
  | ⟨0, _⟩ => show win1_0.index t (0 : Fin 2) * 1024 + 1 * p.val = r.val; omega
  | ⟨1, _⟩ => show win1_0.index t (1 : Fin 2) * 2048 + 1 * j.val = k.val; omega

/-- The weights' block at `t` is rows `1024 ((t / 2) % 4) ..`, columns `2048 (t % 2) ..` of their array. -/
theorem wblk_apply (c : Dev nD) (t : Fin cfg1.N) (q : Fin 1024) (j : Fin 2048) (k : Fin 4096) (l : Fin 4096)
    (hk : k.val = t.val / 2 % 4 * 1024 + q.val) (hl : l.val = t.val % 2 * 2048 + j.val) :
    wblk V c t (ix2 q j) = warr V c (ix2 k l) := by
  obtain ⟨-, -, e2, e3, -⟩ := idx_facts1 t
  show ((cfg1.win 1).blk t).view.read (Elt Ideal) (V c (Pipeline.arrRef spec1 1)) (ix2 q j) = warr V c (ix2 k l)
  rw [View.read_apply]
  show warr V c _ = warr V c _
  refine congrArg (warr V c) (funext fun a => Fin.ext ?_)
  match a with
  | ⟨0, _⟩ => show win1_1.index t (0 : Fin 2) * 1024 + 1 * q.val = k.val; omega
  | ⟨1, _⟩ => show win1_1.index t (1 : Fin 2) * 2048 + 1 * j.val = l.val; omega

/-- The bias block at `t` is entries `1024 ((t / 2) % 4) ..` of the bias. -/
theorem bblk_apply (c : Dev nD) (t : Fin cfg1.N) (q : Fin 1024) (k : Fin 4096)
    (hk : k.val = t.val / 2 % 4 * 1024 + q.val) :
    bblk V c t (ix1 q) = barr V c (ix1 k) := by
  obtain ⟨-, -, -, -, e4, -⟩ := idx_facts1 t
  show ((cfg1.win 2).blk t).view.read (Elt Ideal) (V c (Pipeline.arrRef spec1 2)) (ix1 q) = barr V c (ix1 k)
  rw [View.read_apply]
  show barr V c _ = barr V c _
  refine congrArg (barr V c) (funext fun a => Fin.ext ?_)
  match a with
  | ⟨0, _⟩ => show win1_2.index t (0 : Fin 1) * 1024 + 1 * q.val = k.val; omega

/-- After an even position the accumulator holds zero plus the product of that position's blocks. -/
theorem acc_even (c : Dev nD) (t : Fin cfg1.N) (h0 : t.val % 2 = 0) (p q : Fin 1024) :
    (outsAt1 V c t.val t.isLt).2 (ix2 p q) = 0 + ∑ j : Fin 2048, xblk V c t (ix2 p j) * wblk V c t (ix2 q j) := by
  have h1 : ¬t.val % 2 = 1 := by omega
  rw [outsAt1_A V c t h0 h1]; dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 p q)).trans ?_
  rw [pay2_apply, pay1_apply]

/-- After an odd position the output block holds the two halves of the contraction, accumulated from zero, plus
    the bias row. -/
theorem out_odd (c : Dev nD) (t : Fin cfg1.N) (h1 : t.val % 2 = 1) (p q : Fin 1024) :
    (outsAt1 V c t.val t.isLt).1 (ix2 p q)
      = ((0 + ∑ j : Fin 2048, xblk V c (pred1 t) (ix2 p j) * wblk V c (pred1 t) (ix2 q j))
          + ∑ j : Fin 2048, xblk V c t (ix2 p j) * wblk V c t (ix2 q j)) + bblk V c t (ix1 q) := by
  have h0 : ¬t.val % 2 = 0 := by omega
  rw [outsAt1_B V c t h0 h1]; dsimp only
  refine (congrFun (out1_B_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
  rw [pay3_apply, pay2_apply]
  have e := acc_even V c (pred1 t) (by show (t.val - 1) % 2 = 0; omega) p q
  exact congrArg (fun z => (z + ∑ j : Fin 2048, xblk V c t (ix2 p j) * wblk V c t (ix2 q j)) + bblk V c t (ix1 q)) e

/-- So after an odd position the output block's entry is the product matrix's entry at the block's place. -/
theorem out_odd_mm (c : Dev nD) (t : Fin cfg1.N) (h1 : t.val % 2 = 1) (p q : Fin 1024) (r : Fin 8192) (k : Fin 4096)
    (hr : r.val = t.val / 8 * 1024 + p.val) (hk : k.val = t.val / 2 % 4 * 1024 + q.val) :
    (outsAt1 V c t.val t.isLt).1 (ix2 p q) = Cert.Spec.mmAt (xarr V c) (warr V c) (barr V c) r k := by
  rw [out_odd V c t h1 p q]
  have hA : ∀ j : Fin 2048, xblk V c (pred1 t) (ix2 p j) * wblk V c (pred1 t) (ix2 q j)
      = xarr V c (ix2 r (⟨j.val, by have := j.isLt; omega⟩ : Fin 4096)) * warr V c (ix2 k (⟨j.val, by have := j.isLt; omega⟩ : Fin 4096)) := fun j => by
    rw [xblk_apply V c (pred1 t) p j r ⟨j.val, by have := j.isLt; omega⟩ (by show r.val = (t.val - 1) / 8 * 1024 + p.val; omega) (by show j.val = (t.val - 1) % 2 * 2048 + j.val; omega),
      wblk_apply V c (pred1 t) q j k ⟨j.val, by have := j.isLt; omega⟩ (by show k.val = (t.val - 1) / 2 % 4 * 1024 + q.val; omega) (by show j.val = (t.val - 1) % 2 * 2048 + j.val; omega)]
  have hB : ∀ j : Fin 2048, xblk V c t (ix2 p j) * wblk V c t (ix2 q j)
      = xarr V c (ix2 r (⟨2048 + j.val, by have := j.isLt; omega⟩ : Fin 4096)) * warr V c (ix2 k (⟨2048 + j.val, by have := j.isLt; omega⟩ : Fin 4096)) := fun j => by
    rw [xblk_apply V c t p j r ⟨2048 + j.val, by have := j.isLt; omega⟩ hr (by show 2048 + j.val = t.val % 2 * 2048 + j.val; omega),
      wblk_apply V c t q j k ⟨2048 + j.val, by have := j.isLt; omega⟩ hk (by show 2048 + j.val = t.val % 2 * 2048 + j.val; omega)]
  rw [Finset.sum_congr rfl (fun j _ => hA j), Finset.sum_congr rfl (fun j _ => hB j), bblk_apply V c t q k hk]
  rfl

/-- What an odd position writes back is its block of the product matrix. -/
theorem flushed_eq1 (c : Dev nD) (t : Fin cfg1.N) (hf : (cfg1.win 3).flush t = true) :
    (dat1 (F := Ideal) V c).flushed 3 t
      = ((cfg1.win 3).blk t).view.read (Elt Ideal) (Cert.Spec.MM (V c main_v4) (V c main_v2) (V c main_arg6)) := by
  have h1 : t.val % 2 = 1 := (flush1_3 t).mp hf
  obtain ⟨-, -, -, -, -, e5, e6⟩ := idx_facts1 t
  show (cfg1.win 3).cut (grid1.coords t) ((dat1 (F := Ideal) V c).after 3 t) = _
  rw [after1_3]
  funext y
  obtain ⟨p, q, rfl⟩ : ∃ (p : Fin 1024) (q : Fin 1024), y = ix2 p q := ⟨y 0, y 1, eq_ix2 y⟩
  have hx : (cfg1.win 3).xinj (grid1.coords t) (ix2 p q) = ix2 p q := funext fun a => Fin.ext rfl
  rw [View.read_apply]
  show (outsAt1 V c t.val t.isLt).1 ((cfg1.win 3).xinj (grid1.coords t) (ix2 p q))
    = Cert.Spec.mmAt (xarr V c) (warr V c) (barr V c) ((((cfg1.win 3).blk t).view.emb (ix2 p q)) 0) ((((cfg1.win 3).blk t).view.emb (ix2 p q)) 1)
  rw [hx]
  exact out_odd_mm V c t h1 p q _ _
    (by show win1_3.index t (0 : Fin 2) * 1024 + 1 * p.val = t.val / 8 * 1024 + p.val; omega)
    (by show win1_3.index t (1 : Fin 2) * 1024 + 1 * q.val = t.val / 2 % 4 * 1024 + q.val; omega)

/-- Entry (r, k) of the output array lies in the block written back at the odd position with row block `r / 1024`
    and column block `k / 1024`. -/
theorem cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 64 := N_1
  obtain ⟨t, ht⟩ : ∃ t : Fin cfg1.N, t.val = (i 0).val / 1024 * 8 + (i 1).val / 1024 * 2 + 1 :=
    ⟨⟨(i 0).val / 1024 * 8 + (i 1).val / 1024 * 2 + 1, by rw [hN]; omega⟩, rfl⟩
  obtain ⟨-, -, -, -, -, e5, e6⟩ := idx_facts1 t
  refine ⟨t, (flush1_3 t).mpr (by omega), ?_⟩
  show i ∈ ((View.whole main_v5).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

end Value

/-- After the region's last point its output array is the product matrix of the entry arrays. -/
theorem final1 (V : (c : Dev nD) → (b : Ref sig .tc) → Buf (Elt Ideal) ((c : Thread nD τ).loc b)) (c : Dev nD) :
    (dat1 (F := Ideal) V c).arrAt 3 cfg1.N
      = Cert.Spec.MM (V c main_v4) (V c main_v2) (V c main_arg6) :=
  (dat1 (F := Ideal) V c).arrAt_eq_of_cover 3 (Cert.Spec.MM (V c main_v4) (V c main_v2) (V c main_arg6))
    (fun t hf => flushed_eq1 V c t hf) cover1

end Cert.KernelIdeal.Hand

end
-- ==== Proof.Bridge.lean ====
/-
  The kernel's program as one function of its arguments is the specification: flattening the activations to 8192
  rows, narrowing them (the identity on the extended reals), multiplying by the dequantised weights half a
  contraction at a time and unflattening the result is the linear layer `Cert.Spec.G`.
-/
import proofs.«110790_j64330020159907_1_alg».proof.Proof.Spec
import Idealize.ShloMosaic.Lib.Pipeline.Value
import Idealize.ShloMosaic.Lib.ValueLayout

noncomputable section

namespace Cert.Spec

open Idealize.ShloMosaic Idealize.ShloMosaic.ValueIdx

/-- The row of the flattened activations that holds batch `b`, position `s`. -/
def row (b : Fin 4) (s : Fin 2048) : Fin 8192 := ⟨b.val * 2048 + s.val, by have := b.isLt; have := s.isLt; omega⟩

/-- The activations flattened to 8192 rows read, at row `b * 2048 + s` and column `n`, the activations at `(b, s, n)`. -/
theorem flat_apply {α : Type} (x : SX.Idx → α) (h1 : SX.ShapeCasts SM) (b : Fin 4) (s : Fin 2048) (n : Fin 4096) :
    shapeCast SM x h1 (ix2 (row b s) n) = x (ix3 b s n) :=
  shapeCast_apply x h1 _ _ (by
    rw [Shape.rowMajor_val_three, Shape.rowMajor_val_two]
    show (b.val * 2048 + s.val) * 4096 + n.val = (b.val * 2048 + s.val) * 4096 + n.val
    rfl)

/-- The product matrix unflattened reads, at `(b, s, k)`, the matrix at row `b * 2048 + s` and column `k`. -/
theorem unflat_apply {α : Type} (y : SM.Idx → α) (h3 : SM.ShapeCasts SX) (b : Fin 4) (s : Fin 2048) (k : Fin 4096) :
    shapeCast SX y h3 (ix3 b s k) = y (ix2 (row b s) k) :=
  shapeCast_apply y h3 _ _ (by
    rw [Shape.rowMajor_val_three, Shape.rowMajor_val_two]
    show (b.val * 2048 + s.val) * 4096 + k.val = (b.val * 2048 + s.val) * 4096 + k.val
    rfl)

/-- Scales (or zero points) with their trailing unit axis dropped read, at `(k, g)`, the original at `(k, g, 0)`. -/
theorem drop_apply {α : Type} (z : SG.Idx → α) (h2 : SG.ShapeCasts SG2) (k : Fin 4096) (g : Fin 32) :
    shapeCast SG2 z h2 (ix2 k g) = z (ix3 k g (0 : Fin 1)) :=
  shapeCast_apply z h2 _ _ (by
    rw [Shape.rowMajor_val_three, Shape.rowMajor_val_two]
    show (k.val * 32 + g.val) * 1 + 0 = k.val * 32 + g.val
    omega)

/-- The weight from the matrix-shaped zero points and scales is the weight from the original ones. -/
theorem wd2_drop (q : Vec Ideal SW .i32) (sc ze : Vec Ideal SG .f32) (mu1 mu2 : Vec Ideal SV .f32) (h2 : SG.ShapeCasts SG2)
    (k n : Fin 4096) :
    wd2 q (shapeCast SG2 sc h2) (shapeCast SG2 ze h2) mu1 mu2 k n = wd q sc ze mu1 mu2 k n := by
  unfold wd2 wd
  rw [drop_apply sc h2 k (grp n), drop_apply ze h2 k (grp n)]

/-- The composition of the kernel program's host operations and its two regions' functions is `G`. -/
theorem bridge (x : Vec Ideal SX .f32) (q : Vec Ideal SW .i32) (sc ze : Vec Ideal SG .f32) (mu1 mu2 bias : Vec Ideal SV .f32)
    (h1 : SX.ShapeCasts SM) (h2 : SG.ShapeCasts SG2) (h3 : SM.ShapeCasts SX) (hlt : FTy.bits .bf16 < FTy.bits .f32) :
    shapeCast SX (MM (truncf (F := Ideal) .bf16 (shapeCast SM x h1) hlt) (W2 q (shapeCast SG2 sc h2) (shapeCast SG2 ze h2) mu1 mu2) bias) h3
      = G x q sc ze mu1 mu2 bias := by
  funext i
  obtain ⟨b, s, k, rfl⟩ : ∃ (b : Fin 4) (s : Fin 2048) (k : Fin 4096), i = ix3 b s k := ⟨i 0, i 1, i 2, eq_ix3 i⟩
  rw [unflat_apply _ h3 b s k]
  show mmAt (truncf (F := Ideal) .bf16 (shapeCast SM x h1) hlt) (W2 q (shapeCast SG2 sc h2) (shapeCast SG2 ze h2) mu1 mu2) bias (row b s) k
      = lin x q sc ze mu1 mu2 bias b s k
  unfold mmAt lin
  refine congrArg (· + bias (ix1 k)) ?_
  have hf : ∀ n : Fin 4096,
      truncf (F := Ideal) .bf16 (shapeCast SM x h1) hlt (ix2 (row b s) n)
        * W2 q (shapeCast SG2 sc h2) (shapeCast SG2 ze h2) mu1 mu2 (ix2 k n)
      = x (ix3 b s n) * wd q sc ze mu1 mu2 k n := by
    intro n
    rw [truncf_apply, flat_apply x h1 b s n]
    show x (ix3 b s n) * wd2 q (shapeCast SG2 sc h2) (shapeCast SG2 ze h2) mu1 mu2 k n = _
    rw [wd2_drop]
  simp only [hf]
  exact sum_two_halves (fun n => x (ix3 b s n) * wd q sc ze mu1 mu2 k n)

end Cert.Spec

end
-- ==== Proof.KIValMain.lean ====
/-
  The result buffer at the end of the kernel's program, over the extended reals, is the specification `Cert.Spec.G` of
  the argument arrays — given what each kernel region leaves in its output array as a function of the arrays it is
  entered from (`h0`: the dequantised weight matrix; `h1`: the tiled product with its bias). The valuations between
  the items are read back one host operation at a time: the two reshapes of the zero points and scales before the first
  region, the flattening and narrowing of the activations before the second, the unflattening of the product after it.
-/
import proofs.«110790_j64330020159907_1_alg».proof.Proof.KILaunch
import proofs.«110790_j64330020159907_1_alg».proof.Proof.Bridge
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ)

/-- The reshaped scales the first region is entered from. -/
theorem E1_v0 (c : Dev nD) : (E1 m c main_v0 : S4096x32.Idx → EReal)
    = shapeCast S4096x32 (m ((c.tc : Thread nD τ).loc main_arg2)) shapeCasts_S4096x32x1_S4096x32 := by
  show StableHlo.after hostOps0 (fun b => m (c, b)) (Proc.devRef .tc main_v0) = _
  after_results; rfl

/-- The reshaped zero points the first region is entered from. -/
theorem E1_v1 (c : Dev nD) : (E1 m c main_v1 : S4096x32.Idx → EReal)
    = shapeCast S4096x32 (m ((c.tc : Thread nD τ).loc main_arg3)) shapeCasts_S4096x32x1_S4096x32 := by
  show StableHlo.after hostOps0 (fun b => m (c, b)) (Proc.devRef .tc main_v1) = _
  after_results; rfl

theorem E1_arg (c : Dev nD) (r : Ref sig .tc) (h : r ∉ hostOps0_W) : E1 m c r = m ((c.tc : Thread nD τ).loc r) :=
  Gen.V1_of m c r h

/-- The flattened, narrowed activations the second region is entered from. -/
theorem E3_v4 (c : Dev nD) : (E3 m c main_v4 : S8192x4096.Idx → EReal)
    = truncf (F := Ideal) .bf16 (shapeCast S8192x4096 (m ((c.tc : Thread nD τ).loc main_arg0)) shapeCasts_S4x2048x4096_S8192x4096) bitsLt_bf16_f32 := by
  have e : Gen.V2 m (outsA m) c main_arg0 = m ((c.tc : Thread nD τ).loc main_arg0) :=
    (Gen.V2_of m (outsA m) c main_arg0 (by decide)).trans (Gen.V1_of m c main_arg0 (by decide))
  show StableHlo.after hostOps1 (Gen.V2 m (outsA m) c) (Proc.devRef .tc main_v4) = _
  after_results
  rw [e]
  rfl

theorem E3_arg6 (c : Dev nD) : E3 m c main_arg6 = m ((c.tc : Thread nD τ).loc main_arg6) :=
  (Gen.V3_of m (outsA m) c main_arg6 (by decide)).trans
    ((Gen.V2_of m (outsA m) c main_arg6 (by decide)).trans (Gen.V1_of m c main_arg6 (by decide)))

/-- The weight matrix the second region is entered from is what the first region left. -/
theorem E3_v2 (c : Dev nD) : E3 m c main_v2 = (dat0 (E1 m) c).arrAt 5 cfg0.N := by
  refine (Gen.V3_of m (outsA m) c main_v2 (by decide)).trans ?_
  show Function.update (Gen.V1 m c) main_v2 (outsA m 2 main_v2 c) main_v2 = _
  rw [Function.update_self]
  unfold outsA arrs0
  exact Pipeline.withArrays_arr spec0 launch0.win.arr_inj c _ _ 5

/-- The result buffer is the last reshape of what the second region left. -/
theorem V5_v6 (c : Dev nD) : (Gen.V5 m (outs m) c main_v6 : S4x2048x4096.Idx → EReal)
    = shapeCast S4x2048x4096 ((dat1 (E3 m) c).arrAt 3 cfg1.N) shapeCasts_S8192x4096_S4x2048x4096 := by
  have e : Gen.V4 m (outs m) c main_v5 = (dat1 (E3 m) c).arrAt 3 cfg1.N := by
    show Function.update (Gen.V3 m (outs m) c) main_v5 (outs m 4 main_v5 c) main_v5 = _
    rw [Function.update_self]; exact outs_four m c
  show StableHlo.after hostOps2 (Gen.V4 m (outs m) c) (Proc.devRef .tc main_v6) = _
  after_results
  rw [e]
  rfl

/-- THE RESULT: given the two regions' functions, the result buffer at the end is the specification of the arguments. -/
theorem result_eq
    (h0 : ∀ (V : (c : Dev nD) → (b : Ref sig .tc) → Buf (Elt Ideal) ((c : Thread nD τ).loc b)) (c : Dev nD),
      (dat0 (F := Ideal) V c).arrAt 5 cfg0.N = Cert.Spec.W2 (V c main_arg1) (V c main_v0) (V c main_v1) (V c main_arg4) (V c main_arg5))
    (h1 : ∀ (V : (c : Dev nD) → (b : Ref sig .tc) → Buf (Elt Ideal) ((c : Thread nD τ).loc b)) (c : Dev nD),
      (dat1 (F := Ideal) V c).arrAt 3 cfg1.N = Cert.Spec.MM (V c main_v4) (V c main_v2) (V c main_arg6))
    (c : Dev nD) :
    Gen.V5 m (outs m) c main_v6
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (V5_v6 m c).trans ?_
  rw [h1 (E3 m) c, E3_v4 m c, E3_arg6 m c, E3_v2 m c, h0 (E1 m) c, E1_v0 m c, E1_v1 m c,
    E1_arg m c main_arg1 (by decide), E1_arg m c main_arg4 (by decide), E1_arg m c main_arg5 (by decide)]
  exact Cert.Spec.bridge _ _ _ _ _ _ _ _ _ _ _

end Cert.KernelIdeal.Hand

end
-- ==== Proof.RefIsG.lean ====
/-
  The reference program's result, read one host operation at a time, is the function `Cert.Spec.G` of its
  arguments: the dequantised weight is read through the two reshapes (a row of 4096 columns as 32 groups of 128 and
  back), the three broadcasts (zero point and scale along a group, the row factor along a row, the column factor
  along a column), and the contraction over the columns.
-/
import proofs.«110790_j64330020159907_1_alg».proof.Proof.Gen.ReferenceIdeal.Read
import proofs.«110790_j64330020159907_1_alg».proof.Proof.Spec

noncomputable section

namespace Cert.RefValue

open Idealize.ShloMosaic Idealize.ShloMosaic.ValueIdx Cert.ReferenceIdeal Cert.ReferenceIdeal.Read

/-- The left operand of the contraction is read at batch, position and the contracted column. -/
theorem lidx_ix3 (b : Fin 4) (s : Fin 2048) (k n : Fin 4096) :
    lidx_main_v13 (ix3 b s k) n = ix3 b s n := by
  funext a
  match a with
  | ⟨0, _⟩ => rfl
  | ⟨1, _⟩ => rfl
  | ⟨2, _⟩ => rfl

/-- The right operand of the contraction is read at the output feature's row and the contracted column. -/
theorem ridx_ix2 (b : Fin 4) (s : Fin 2048) (k n : Fin 4096) :
    ridx_main_v13 (ix3 b s k) n = ix2 k n := by
  funext a
  match a with
  | ⟨0, _⟩ => rfl
  | ⟨1, _⟩ => rfl

/-- The bias is read at the output feature. -/
theorem idx_bias (b : Fin 4) (s : Fin 2048) (k : Fin 4096) :
    idx_main_v14 (idx_main_v15 (ix3 b s k)) = ix1 k := by
  funext a
  match a with
  | ⟨0, _⟩ => rfl

/-- The column factor is read at the column. -/
theorem idx_col (k n : Fin 4096) : idx_main_v10 (idx_main_v11 (ix2 k n)) = ix1 n := by
  funext a
  match a with
  | ⟨0, _⟩ => rfl

/-- The row factor is read at the row. -/
theorem idx_row (k n : Fin 4096) : idx_main_v7 (idx_main_v8 (ix2 k n)) = ix1 k := by
  funext a
  match a with
  | ⟨0, _⟩ => rfl

/-- Splitting a row into groups and joining the groups again returns to the same entry. -/
theorem idx_q (k n : Fin 4096) : idx_main_v1 (idx_main_v6 (ix2 k n)) = ix2 k n := by
  have hk := k.isLt
  have hn := n.isLt
  funext a
  match a with
  | ⟨0, _⟩ =>
    refine Fin.ext ?_
    show ((((k.val * 4096 + n.val) / 4096) * 32 + (k.val * 4096 + n.val) / 128 % 32) * 128 + (k.val * 4096 + n.val) % 128) / 4096 = k.val
    omega
  | ⟨1, _⟩ =>
    refine Fin.ext ?_
    show ((((k.val * 4096 + n.val) / 4096) * 32 + (k.val * 4096 + n.val) / 128 % 32) * 128 + (k.val * 4096 + n.val) % 128) % 4096 = n.val
    omega

/-- The zero point of an entry is that of its row and group. -/
theorem idx_ze (k n : Fin 4096) : idx_main_v2 (idx_main_v6 (ix2 k n)) = ix3 k (Cert.Spec.grp n) (0 : Fin 1) := by
  have hk := k.isLt
  have hn := n.isLt
  funext a
  match a with
  | ⟨0, _⟩ =>
    refine Fin.ext ?_
    show (k.val * 4096 + n.val) / 4096 = k.val
    omega
  | ⟨1, _⟩ =>
    refine Fin.ext ?_
    show (k.val * 4096 + n.val) / 128 % 32 = n.val / 128
    omega
  | ⟨2, _⟩ => rfl

/-- The scale of an entry is that of its row and group. -/
theorem idx_sc (k n : Fin 4096) : idx_main_v4 (idx_main_v6 (ix2 k n)) = ix3 k (Cert.Spec.grp n) (0 : Fin 1) := by
  have hk := k.isLt
  have hn := n.isLt
  funext a
  match a with
  | ⟨0, _⟩ =>
    refine Fin.ext ?_
    show (k.val * 4096 + n.val) / 4096 = k.val
    omega
  | ⟨1, _⟩ =>
    refine Fin.ext ?_
    show (k.val * 4096 + n.val) / 128 % 32 = n.val / 128
    omega
  | ⟨2, _⟩ => rfl

/-- The weight the reference contracts against is the dequantised, rescaled weight. -/
theorem weight_eq (x1 : Vec Ideal Cert.Spec.SW .i32) (x2 x3 : Vec Ideal Cert.Spec.SG .f32)
    (x4 x5 : Vec Ideal Cert.Spec.SV .f32) (k n : Fin 4096) :
    val_main_v12 (F := Ideal) x1 x2 x3 x4 x5 (ix2 k n) = Cert.Spec.wd x1 x2 x3 x4 x5 k n := by
  rw [val_main_v12_apply, val_main_v9_apply, val_main_v6_apply, val_main_v5_apply, val_main_v3_apply,
    val_main_v1_apply, val_main_v0_apply, val_main_v2_apply, val_main_v4_apply, val_main_v8_apply,
    val_main_v7_apply, val_main_v11_apply, val_main_v10_apply,
    idx_q, idx_ze, idx_sc, idx_row, idx_col]
  rfl

/-- The reference's last stage is the specification. -/
theorem ref_eq_G (x0 : Vec Ideal Cert.Spec.SX .f32) (x1 : Vec Ideal Cert.Spec.SW .i32) (x2 x3 : Vec Ideal Cert.Spec.SG .f32)
    (x4 x5 x6 : Vec Ideal Cert.Spec.SV .f32) :
    val_main_v16 (F := Ideal) x0 x1 x2 x3 x4 x5 x6 = Cert.Spec.G x0 x1 x2 x3 x4 x5 x6 := by
  funext i
  obtain ⟨b, s, k, rfl⟩ : ∃ (b : Fin 4) (s : Fin 2048) (k : Fin 4096), i = ix3 b s k := ⟨i 0, i 1, i 2, eq_ix3 i⟩
  rw [val_main_v16_apply, val_main_v13_apply, val_main_v15_apply, val_main_v14_apply, idx_bias]
  show (∑ n : Fin 4096, x0 (lidx_main_v13 (ix3 b s k) n) * val_main_v12 (F := Ideal) x1 x2 x3 x4 x5 (ridx_main_v13 (ix3 b s k) n)) + x6 (ix1 k)
    = (∑ n : Fin 4096, x0 (ix3 b s n) * Cert.Spec.wd x1 x2 x3 x4 x5 k n) + x6 (ix1 k)
  refine congrArg (· + x6 (ix1 k)) (Finset.sum_congr rfl fun n _ => ?_)
  rw [lidx_ix3, ridx_ix2, weight_eq]

end Cert.RefValue

end
-- ==== Proof.lean ====
/-
  The certificate of the quantised linear layer: a kernel program of two Pallas kernels — a group-wise dequantisation
  of the weights (`w[k, n] = (((q[k, n] - zero[k, n / 128]) * scale[k, n / 128]) * mu2[k]) * mu1[n]`) and a tiled matrix
  product `out[r, k] = (∑ n, x[r, n] * w[k, n]) + bias[k]` whose contraction is walked in two halves over an
  accumulator — against the plain reference that computes the same weights and one whole contraction.

  Frames. Each kernel program (at the word level and idealized) is run as five items: host reshapes, the first kernel
  region, a host reshape and narrowing, the second kernel region, a host reshape. Each region is a segment whose
  invariant starts from and returns to the scoped buffers at anything; the second region's carries the accumulator
  from one grid position to the next. No item writes an argument, so the arguments end as launched. The reference is
  host operations only; its frame is its run with the result dropped.

  Values, over the extended reals. The first region's output array is the weight matrix, block of 256 rows by block.
  The second region's is the product: after an even grid position the accumulator holds zero plus the first half of
  the contraction, after the odd position that follows it holds that plus the second half, and the output block then
  holds the accumulator plus the bias row. Narrowing to a shorter float format is the identity on the extended reals,
  the two reshapes around the regions only re-index, and the two half sums started from zero are the whole sum —
  addition on the extended reals is associative and commutative with no finiteness needed — so the kernel program's
  result is the reference's, index by index; the precondition is never opened. The ideal pass rewrote nothing, so the
  idealization is the program's own text.
-/
import proofs.«110790_j64330020159907_1_alg».proof.Defs
import proofs.«110790_j64330020159907_1_alg».proof.Proof.Gen.Kernel
import proofs.«110790_j64330020159907_1_alg».proof.Proof.Gen.KernelIdeal
import proofs.«110790_j64330020159907_1_alg».proof.Proof.Gen.ReferenceIdeal
import proofs.«110790_j64330020159907_1_alg».proof.Proof.Gen.Pre_finite_inputs
import proofs.«110790_j64330020159907_1_alg».proof.Proof.Gen.ReferenceIdeal.Run
import proofs.«110790_j64330020159907_1_alg».proof.Proof.Gen.ReferenceIdeal.Read
import proofs.«110790_j64330020159907_1_alg».proof.Proof.KLaunch
import proofs.«110790_j64330020159907_1_alg».proof.Proof.KILaunch
import proofs.«110790_j64330020159907_1_alg».proof.Proof.KIVal0
import proofs.«110790_j64330020159907_1_alg».proof.Proof.KIVal1
import proofs.«110790_j64330020159907_1_alg».proof.Proof.KIValMain
import proofs.«110790_j64330020159907_1_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.KernelIdeal.Hand in
/-- Both idealized programs end with the specification `Cert.Spec.G` of their (agreeing) arguments in the result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c =>
      ⟨(h c _ (mem_uc Cert.KernelIdeal.main_v6 (by decide))).trans (result_eq m final0 final1 c),
       (h c _ (mem_uc Cert.KernelIdeal.main_arg0 (by decide))).trans (Cert.KernelIdeal.Gen.V5_main_arg0 m (outs m) c),
       (h c _ (mem_uc Cert.KernelIdeal.main_arg1 (by decide))).trans (Cert.KernelIdeal.Gen.V5_main_arg1 m (outs m) c),
       (h c _ (mem_uc Cert.KernelIdeal.main_arg2 (by decide))).trans (Cert.KernelIdeal.Gen.V5_main_arg2 m (outs m) c),
       (h c _ (mem_uc Cert.KernelIdeal.main_arg3 (by decide))).trans (Cert.KernelIdeal.Gen.V5_main_arg3 m (outs m) c),
       (h c _ (mem_uc Cert.KernelIdeal.main_arg4 (by decide))).trans (Cert.KernelIdeal.Gen.V5_main_arg4 m (outs m) c),
       (h c _ (mem_uc Cert.KernelIdeal.main_arg5 (by decide))).trans (Cert.KernelIdeal.Gen.V5_main_arg5 m (outs m) c),
       (h c _ (mem_uc Cert.KernelIdeal.main_arg6 (by decide))).trans (Cert.KernelIdeal.Gen.V5_main_arg6 m (outs m) c)⟩)
      (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.RefValue.ref_eq_G,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
